-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S320x64 : Shape := ⟨2, ![320, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x64 : S_.BroadcastsInDim S320x64 (![] : Fin 0 → Fin S320x64.rank)
  reducesTo_S320x64_S_d0_1 : S320x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_arg4 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg3 main_v54
  let main_c_21 : IVec S_ 32 := constantI S_ 32 49999#32
  let main_v56 : IVec S800000 32 := broadcastInDim S800000 ![] bcast_S_S800000 main_c_21
  let main_v57 : IVec S800000 1 := cmpi .sle main_arg3 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  let main_c_23 : IVec S_ 32 := constantI S_ 32 0#32
  let main_v61 : IVec S800000 32 := broadcastInDim S800000 ![] bcast_S_S800000 main_c_23
  let main_v62 : IVec S800000 1 := cmpi .sge main_arg4 main_v61
  let main_c_24 : IVec S_ 32 := constantI S_ 32 49999#32
  let main_v63 : IVec S800000 32 := broadcastInDim S800000 ![] bcast_S_S800000 main_c_24
  let main_v64 : IVec S800000 1 := cmpi .sle main_arg4 main_v63
  let main_v65 : IVec S800000 1 := andi main_v62 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v60 main_v66
  main_v67

def fn_part2 {F : FTy → Type} [FloatOps F] (main_arg3 : IVec S800000 32) (main_arg4 : IVec S800000 32) (main_arg9 : FVec F S128x64 .f32) (main_arg10 : FVec F S64 .f32) (main_arg11 : FVec F S64x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_v48 main_v49 main_v50

def fn_part1 {F : FTy → Type} [FloatOps F] (main_arg3 : IVec S800000 32) (main_arg4 : IVec S800000 32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_v13 : IVec S_ 1) (main_v16 : IVec S320x64 1) : IVec S_ 1 :=
  let main_c_5 : IVec S_ 1 := constantI S_ 1 1#1
  let main_v17 : IVec S_ 1 := (fun x v => Host.reduce IntOp.andi x v reducesTo_S320x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_v33

def fn {F : FTy → Type} [FloatOps F] (main_arg0 : FVec F S50000x64 .f32) (main_arg1 : FVec F S800000x64 .f32) (main_arg2 : FVec F S50000x64 .f32) (main_arg3 : IVec S800000 32) (main_arg4 : IVec S800000 32) (main_arg5 : FVec F S320x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S320x64 .f32 := Host.absf main_arg5
  let main_cst_4 : FVec F S_ .f32 := constant S_ .f32 0x7F800000#32
  let main_v15 : FVec F S320x64 .f32 := broadcastInDim S320x64 ![] bcast_S_S320x64 main_cst_4
  let main_v16 : IVec S320x64 1 := cmpf .olt main_v14 main_v15
  fn_part1 (F := F) main_arg3 main_arg4 main_arg6 main_arg7 main_arg8 main_arg9 main_arg10 main_arg11 main_arg12 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S320x64 : Shape := ⟨2, ![320, 64]⟩
abbrev S64 : Shape := ⟨1, ![64]⟩
abbrev S64x64 : Shape := ⟨2, ![64, 64]⟩
abbrev S128x64 : Shape := ⟨2, ![128, 64]⟩
abbrev S10000x64 : Shape := ⟨2, ![10000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S8000x64 : Shape := ⟨2, ![8000, 64]⟩
abbrev S1x64 : Shape := ⟨2, ![1, 64]⟩

abbrev nBuf : Space → Nat
  | .hbm => 74
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S50000x64, .f32⟩
  | .hbm, ⟨3, _⟩ => ⟨S800000, .i32⟩
  | .hbm, ⟨4, _⟩ => ⟨S800000, .i32⟩
  | .hbm, ⟨5, _⟩ => ⟨S320x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S50000x64, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x64, .f32⟩
  | .hbm, ⟨39, _⟩ => ⟨S800000x64, .i1⟩
  | .hbm, ⟨40, _⟩ => ⟨S_, .f32⟩
  | .hbm, ⟨41, _⟩ => ⟨S800000x64, .f32⟩
  | .hbm, ⟨42, _⟩ => ⟨S800000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x64, .f32⟩
  | .hbm, ⟨62, _⟩ => ⟨S800000x64, .i1⟩
  | .hbm, ⟨63, _⟩ => ⟨S_, .f32⟩
  | .hbm, ⟨64, _⟩ => ⟨S800000x64, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S64x64, .f32⟩
  | .hbm, ⟨72, _⟩ => ⟨S64x64, .f32⟩
  | .hbm, ⟨73, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S8000x64, .f32⟩
  | .local _ .vmem, ⟨23, _⟩ => ⟨S8000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64x64, .f32⟩
  | .local _ .vmem, ⟨30, _⟩ => ⟨S64, .f32⟩
  | .local _ .vmem, ⟨31, _⟩ => ⟨S64x64, .f32⟩
  | .local _ .vmem, ⟨32, _⟩ => ⟨S64, .f32⟩
  | .local _ .vmem, ⟨33, _⟩ => ⟨S10000x64, .f32⟩
  | .local _ .vmem, ⟨34, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_v8 : Ref sig .tc := ⟨.hbm, 66, rfl⟩
abbrev main_cst : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S320x64_S64x64_0_0 : S320x64.Slices ![0, 0] S64x64
  slices_S320x64_S64x64_64_0 : S320x64.Slices ![64, 0] S64x64
  slices_S320x64_S64x64_128_0 : S320x64.Slices ![128, 0] S64x64
  slices_S320x64_S64x64_192_0 : S320x64.Slices ![192, 0] S64x64
  slices_S320x64_S64x64_256_0 : S320x64.Slices ![256, 0] S64x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  shapeCasts_S10000x64_S10000x64 : S10000x64.ShapeCasts S10000x64
  broadcasts_S1x64_S10000x64 : S1x64.Broadcasts S10000x64
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S50000x64.size a
  hwx0_6 : ∀ i : grid0.Coords, EltTy.bits .f32 = 32 ∨ (Rect.block (s := S50000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S50000x64.size a
  hwx0_7 : ∀ i : grid0.Coords, EltTy.bits .f32 = 32 ∨ (Rect.block (s := S50000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S800000x64.size a
  hwx1_7 : ∀ i : grid1.Coords, EltTy.bits .f32 = 32 ∨ (Rect.block (s := S800000x64) S8000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S50000x64.size a
  hwx2_7 : ∀ i : grid2.Coords, EltTy.bits .f32 = 32 ∨ (Rect.block (s := S50000x64) S10000x64.size (cc2_transform_7 i) (hinb2_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S8000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S320x64 : Shape := ⟨2, ![320, 64]⟩
abbrev S64 : Shape := ⟨1, ![64]⟩
abbrev S64x64 : Shape := ⟨2, ![64, 64]⟩
abbrev S128x64 : Shape := ⟨2, ![128, 64]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S50000x64, .f32⟩
  | .hbm, ⟨3, _⟩ => ⟨S800000, .i32⟩
  | .hbm, ⟨4, _⟩ => ⟨S800000, .i32⟩
  | .hbm, ⟨5, _⟩ => ⟨S320x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x320, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S800000x64, .f32⟩
  | .hbm, ⟨41, _⟩ => ⟨S1x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x128, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x128_S800000x320_d1 : Shape.Concatenates [S800000x128, S800000x64, S800000x128] S800000x320 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  dot_S800000x320_S320x64_S800000x64_1_0_0_1_n_n_wf : DotDims.WF S800000x320 S320x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x64_S800000x64_1_0_0_1_n_n : DotDims S800000x320 S320x64 S800000x64 where
  lhsContracting := [1]
  rhsContracting := [0]
  lhsNonContracting := [0]
  rhsNonContracting := [1]
  lhsBatch := []
  rhsBatch := []
  wf := dot_S800000x320_S320x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibNary3.lean ====
import Idealize.ShloMosaic.Lib.StableHlo.Run

/-!
# A host operation over a literal family of THREE references

`nary ![x, a, b] y f` (a three-operand concatenate) leaves `y` at `f` of the three operands' contents. The general result
lemma states those contents under a binder, `fun k => F ↑(![x, a, b] k)`, where the reference is no literal and no further
result lemma applies; here they are stated each AT ITS OWN REFERENCE, `Fin.cons (F ↑x) (Fin.cons (F ↑a) (Fin.cons (F ↑b) …))`,
so that a fold through a list of operations goes on being rewritten inside the three operands. The library has this for
four references (`nary4_result`); this is the same statement for three, with its form for the one-pass simplification
and that pass as a tactic.
-/

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a literal list of operations by one `simp` pass, a three- or four-reference operation read operand by
    operand. The general `nary_result'` is left out of the set on purpose: offered beside the literal-family forms, `simp`
    takes it first and the operands stay under its binder. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefRunStaged.lean ====
/-
  The reference program's run, read back stage by stage. Its @main is a straight line of 47 host operations; after the whole
  line the result buffer holds the composition of the operations' functions applied to the arguments' launch contents, and no
  argument is written. The line is cut where a concatenate joins computed operands — after the two gathers, and after the
  scatter — and each stretch is read back by itself from the contents the stretch before it leaves, so that no step has to
  compute through the whole line at once.
-/
import proofs.«408546_j30382598652103_2_alg».proof.Proof.RefRun
import proofs.«408546_j30382598652103_2_alg».proof.Proof.RefRead
import proofs.«408546_j30382598652103_2_alg».proof.Proof.LibNary3
import Idealize.ShloMosaic.Lib.StableHlo.Run

noncomputable section

namespace Cert.ReferenceIdeal.RunStaged

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-- Operations 1–19: through the second gather. -/
abbrev stretch1 : List (HloOp τ sig (Elt F)) :=
  [ binary main_arg0 main_arg2 main_v0 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg3 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg3 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg3 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v8 (broadcastInDim S800000 ![] bcast_S_S800000 : (⟨S_, .i32⟩ : BufTy).Contents (Elt F) → (⟨S800000, .i32⟩ : BufTy).Contents (Elt F)),
    binary main_arg4 main_v8 main_v9 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v10 (broadcastInDim S800000 ![] bcast_S_S800000 : (⟨S_, .i32⟩ : BufTy).Contents (Elt F) → (⟨S800000, .i32⟩ : BufTy).Contents (Elt F)),
    binary main_arg4 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_arg4 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v0 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- Operations 20–35: the three-operand concatenate through the scatter. -/
abbrev stretch2 : List (HloOp τ sig (Elt F)) :=
  [ nary ![main_v7, main_arg1, main_v14] main_v15 (fun u => concatenate S800000x320 1 [⟨S800000x128, u 0⟩, ⟨S800000x64, u 1⟩, ⟨S800000x128, u 2⟩] concatenates_S800000x128_S800000x64_S800000x128_S800000x320_d1),
    binary main_v15 main_arg5 main_v16 ((fun l r => Host.dotGeneral dot_S800000x320_S320x64_S800000x64_1_0_0_1_n_n none l r) : (⟨S800000x320, .f32⟩ : BufTy).Contents (Elt F) → (⟨S320x64, .f32⟩ : BufTy).Contents (Elt F) → (⟨S800000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S800000x64 ![0, 1] bcast_S1x64_S800000x64_0_1 : (⟨S1x64, .f32⟩ : BufTy).Contents (Elt F) → (⟨S800000x64, .f32⟩ : BufTy).Contents (Elt F)),
    binary main_v16 main_v18 main_v19 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v20 (broadcastInDim S800000x64 ![] bcast_S_S800000x64 : (⟨S_, .f32⟩ : BufTy).Contents (Elt F) → (⟨S800000x64, .f32⟩ : BufTy).Contents (Elt F)),
    binary main_v19 main_v20 main_v21 (maximumf : (⟨S800000x64, .f32⟩ : BufTy).Contents (Elt F) → (⟨S800000x64, .f32⟩ : BufTy).Contents (Elt F) → (⟨S800000x64, .f32⟩ : BufTy).Contents (Elt F)),
    binary main_v21 main_arg7 main_v22 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg8 main_v23 (broadcastInDim S1x64 ![1] bcast_S64_S1x64_1 : (⟨S64, .f32⟩ : BufTy).Contents (Elt F) → (⟨S1x64, .f32⟩ : BufTy).Contents (Elt F)),
    unary main_v23 main_v24 (broadcastInDim S800000x64 ![0, 1] bcast_S1x64_S800000x64_0_1 : (⟨S1x64, .f32⟩ : BufTy).Contents (Elt F) → (⟨S800000x64, .f32⟩ : BufTy).Contents (Elt F)),
    binary main_v22 main_v24 main_v25 (addf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v26 (broadcastInDim S50000x64 ![] bcast_S_S50000x64 : (⟨S_, .f32⟩ : BufTy).Contents (Elt F) → (⟨S50000x64, .f32⟩ : BufTy).Contents (Elt F)),
    unary main_arg4 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 36–47: the two-operand concatenate through the last sum. -/
abbrev stretch3 : List (HloOp τ sig (Elt F)) :=
  [ binary main_v28 main_arg0 main_v29 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v29 main_arg9 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v31 (broadcastInDim S1x64 ![1] bcast_S64_S1x64_1 : (⟨S64, .f32⟩ : BufTy).Contents (Elt F) → (⟨S1x64, .f32⟩ : BufTy).Contents (Elt F)),
    unary main_v31 main_v32 (broadcastInDim S50000x64 ![0, 1] bcast_S1x64_S50000x64_0_1 : (⟨S1x64, .f32⟩ : BufTy).Contents (Elt F) → (⟨S50000x64, .f32⟩ : BufTy).Contents (Elt F)),
    binary main_v30 main_v32 main_v33 (addf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x00000000#32),
    unary main_cst_4 main_v34 (broadcastInDim S50000x64 ![] bcast_S_S50000x64 : (⟨S_, .f32⟩ : BufTy).Contents (Elt F) → (⟨S50000x64, .f32⟩ : BufTy).Contents (Elt F)),
    binary main_v33 main_v34 main_v35 (maximumf : (⟨S50000x64, .f32⟩ : BufTy).Contents (Elt F) → (⟨S50000x64, .f32⟩ : BufTy).Contents (Elt F) → (⟨S50000x64, .f32⟩ : BufTy).Contents (Elt F)),
    binary main_v35 main_arg11 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v37 (broadcastInDim S1x64 ![1] bcast_S64_S1x64_1 : (⟨S64, .f32⟩ : BufTy).Contents (Elt F) → (⟨S1x64, .f32⟩ : BufTy).Contents (Elt F)),
    unary main_v37 main_v38 (broadcastInDim S50000x64 ![0, 1] bcast_S1x64_S50000x64_0_1 : (⟨S1x64, .f32⟩ : BufTy).Contents (Elt F) → (⟨S50000x64, .f32⟩ : BufTy).Contents (Elt F)),
    binary main_v36 main_v38 main_v39 (addf : (⟨S50000x64, .f32⟩ : BufTy).Contents (Elt F) → (⟨S50000x64, .f32⟩ : BufTy).Contents (Elt F) → (⟨S50000x64, .f32⟩ : BufTy).Contents (Elt F)) ]

/-- The thirteen argument references. -/
abbrev argRefs : List (Ref sig .tc) := [main_arg0, main_arg1, main_arg2, main_arg3, main_arg4, main_arg5, main_arg6, main_arg7, main_arg8, main_arg9, main_arg10, main_arg11, main_arg12]

/-- The line is the three stretches in a row. -/
theorem line_split : (ops : List (HloOp τ sig (Elt F))) = stretch1 ++ (stretch2 ++ stretch3) := rfl

/-! ## The first stretch: the two gathers, from any contents -/

/-- The first gather's result after the first stretch is its stage of the contents the stretch starts from. -/
theorem stretch1_v7 (V : Valuation τ sig (Elt F)) :
    after stretch1 V (Proc.devRef .tc main_v7)
      = ReadP.val_main_v7 (F := F) (V (Proc.devRef .tc main_arg0)) (V (Proc.devRef .tc main_arg2)) (V (Proc.devRef .tc main_arg3)) := by
  after_results_simp3 <;> rfl

/-- The second gather's result after the first stretch, likewise. -/
theorem stretch1_v14 (V : Valuation τ sig (Elt F)) :
    after stretch1 V (Proc.devRef .tc main_v14)
      = ReadP.val_main_v14 (F := F) (V (Proc.devRef .tc main_arg0)) (V (Proc.devRef .tc main_arg2)) (V (Proc.devRef .tc main_arg4)) := by
  after_results_simp3 <;> rfl

/-- The first stretch writes no argument. -/
theorem stretch1_args (V : Valuation τ sig (Elt F)) :
    ∀ r ∈ (argRefs : List (Ref sig .tc)), after stretch1 V (Proc.devRef .tc r) = V (Proc.devRef .tc r) := by
  intro r hr
  simp only [argRefs, List.mem_cons, List.not_mem_nil, or_false] at hr
  rcases hr with rfl | rfl | rfl | rfl | rfl | rfl | rfl | rfl | rfl | rfl | rfl | rfl | rfl
  all_goals after_results_simp3

/-! ## The second stretch: from the two gathers to the scatter -/

/-- The scatter's result after the second stretch, from contents holding the two gathers' stages. -/
theorem stretch2_v28 (V : Valuation τ sig (Elt F)) (x0 : (⟨S50000x64, .f32⟩ : BufTy).Contents (Elt F)) (x1 : (⟨S800000x64, .f32⟩ : BufTy).Contents (Elt F)) (x2 : (⟨S50000x64, .f32⟩ : BufTy).Contents (Elt F)) (x3 : (⟨S800000, .i32⟩ : BufTy).Contents (Elt F)) (x4 : (⟨S800000, .i32⟩ : BufTy).Contents (Elt F)) (x5 : (⟨S320x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F))
    (h7 : V (Proc.devRef .tc main_v7) = ReadP.val_main_v7 (F := F) x0 x2 x3)
    (h14 : V (Proc.devRef .tc main_v14) = ReadP.val_main_v14 (F := F) x0 x2 x4)
    (e1 : (V (Proc.devRef .tc main_arg1)) = x1) (e4 : (V (Proc.devRef .tc main_arg4)) = x4) (e5 : (V (Proc.devRef .tc main_arg5)) = x5) (e6 : (V (Proc.devRef .tc main_arg6)) = x6) (e7 : (V (Proc.devRef .tc main_arg7)) = x7) (e8 : (V (Proc.devRef .tc main_arg8)) = x8) :
    after stretch2 V (Proc.devRef .tc main_v28) = ReadP.val_main_v28 (F := F) x0 x1 x2 x3 x4 x5 x6 x7 x8 := by
  subst e1 e4 e5 e6 e7 e8
  simp (disch := decide) only [after_cons, after_nil, nullary_result', unary_result', binary_result', ternary_result', nary3_result',
    nullary_result_ne', unary_result_ne', binary_result_ne', ternary_result_ne', nary_result_ne']
  rw [h7, h14]; rfl

/-- The second stretch writes no argument. -/
theorem stretch2_args (V : Valuation τ sig (Elt F)) :
    ∀ r ∈ (argRefs : List (Ref sig .tc)), after stretch2 V (Proc.devRef .tc r) = V (Proc.devRef .tc r) := by
  intro r hr
  simp only [argRefs, List.mem_cons, List.not_mem_nil, or_false] at hr
  rcases hr with rfl | rfl | rfl | rfl | rfl | rfl | rfl | rfl | rfl | rfl | rfl | rfl | rfl
  all_goals after_results_simp3

/-! ## The third stretch: from the scatter to the result -/

/-- The result after the third stretch, from contents holding the scatter's stage. -/
theorem stretch3_v39 (V : Valuation τ sig (Elt F)) (x0 : (⟨S50000x64, .f32⟩ : BufTy).Contents (Elt F)) (x1 : (⟨S800000x64, .f32⟩ : BufTy).Contents (Elt F)) (x2 : (⟨S50000x64, .f32⟩ : BufTy).Contents (Elt F)) (x3 : (⟨S800000, .i32⟩ : BufTy).Contents (Elt F)) (x4 : (⟨S800000, .i32⟩ : BufTy).Contents (Elt F)) (x5 : (⟨S320x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S128x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F))
    (h28 : V (Proc.devRef .tc main_v28) = ReadP.val_main_v28 (F := F) x0 x1 x2 x3 x4 x5 x6 x7 x8)
    (e0 : (V (Proc.devRef .tc main_arg0)) = x0) (e9 : (V (Proc.devRef .tc main_arg9)) = x9) (e10 : (V (Proc.devRef .tc main_arg10)) = x10) (e11 : (V (Proc.devRef .tc main_arg11)) = x11) (e12 : (V (Proc.devRef .tc main_arg12)) = x12) :
    after stretch3 V (Proc.devRef .tc main_v39) = ReadP.val_main_v39 (F := F) x0 x1 x2 x3 x4 x5 x6 x7 x8 x9 x10 x11 x12 := by
  subst e0 e9 e10 e11 e12
  after_results_simp3
  rw [h28]; rfl

/-- The third stretch writes no argument. -/
theorem stretch3_args (V : Valuation τ sig (Elt F)) :
    ∀ r ∈ (argRefs : List (Ref sig .tc)), after stretch3 V (Proc.devRef .tc r) = V (Proc.devRef .tc r) := by
  intro r hr
  simp only [argRefs, List.mem_cons, List.not_mem_nil, or_false] at hr
  rcases hr with rfl | rfl | rfl | rfl | rfl | rfl | rfl | rfl | rfl | rfl | rfl | rfl | rfl
  all_goals after_results_simp3

/-! ## The whole line -/

/-- The whole line writes no argument. -/
theorem line_args (V : Valuation τ sig (Elt F)) :
    ∀ r ∈ (argRefs : List (Ref sig .tc)), after ops V (Proc.devRef .tc r) = V (Proc.devRef .tc r) := by
  intro r hr
  rw [line_split, after_append, after_append, stretch3_args _ r hr, stretch2_args _ r hr, stretch1_args _ r hr]

/-- The result after the whole line is the last stage of the contents the line starts from. -/
theorem line_v39 (V : Valuation τ sig (Elt F)) :
    after ops V (Proc.devRef .tc main_v39)
      = ReadP.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [line_split, after_append, after_append]
  have a := stretch1_args V
  have b : ∀ r ∈ (argRefs : List (Ref sig .tc)), after stretch2 (after stretch1 V) (Proc.devRef .tc r) = V (Proc.devRef .tc r) :=
    fun r hr => (stretch2_args _ r hr).trans (a r hr)
  exact stretch3_v39 _ _ _ _ _ _ _ _ _ _ _ _ _ _
    (stretch2_v28 _ _ _ _ _ _ _ _ _ _ (stretch1_v7 V) (stretch1_v14 V) (a main_arg1 (by decide)) (a main_arg4 (by decide)) (a main_arg5 (by decide))
      (a main_arg6 (by decide)) (a main_arg7 (by decide)) (a main_arg8 (by decide)))
    (b main_arg0 (by decide)) (b main_arg9 (by decide)) (b main_arg10 (by decide)) (b main_arg11 (by decide)) (b main_arg12 (by decide))

/-- On every device, for any float values, from any memory with zero counters: every weakly fair execution of @main
    terminates with the first result at the last stage's value of the arguments, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = Cert.ReferenceIdeal.ReadP.val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v39).trans (line_v39 _),
      (h c main_arg1).trans (line_args _ main_arg1 (by decide)),
      (h c main_arg0).trans (line_args _ main_arg0 (by decide)),
      (h c main_arg1).trans (line_args _ main_arg1 (by decide)),
      (h c main_arg2).trans (line_args _ main_arg2 (by decide)),
      (h c main_arg3).trans (line_args _ main_arg3 (by decide)),
      (h c main_arg4).trans (line_args _ main_arg4 (by decide)),
      (h c main_arg5).trans (line_args _ main_arg5 (by decide)),
      (h c main_arg6).trans (line_args _ main_arg6 (by decide)),
      (h c main_arg7).trans (line_args _ main_arg7 (by decide)),
      (h c main_arg8).trans (line_args _ main_arg8 (by decide)),
      (h c main_arg9).trans (line_args _ main_arg9 (by decide)),
      (h c main_arg10).trans (line_args _ main_arg10 (by decide)),
      (h c main_arg11).trans (line_args _ main_arg11 (by decide)),
      (h c main_arg12).trans (line_args _ main_arg12 (by decide))⟩)
    (run_seq scopedRefs_eq scopedSems_eq defs main (fun _ => ops) main_eq (fun _ => ops_sub) m ρ)

end Cert.ReferenceIdeal.RunStaged

end
-- ==== Proof.KTerms.lean ====
/-
  The kernel program's host-side terms between its regions, named once: the index column a `jnp.take` builds from an
  index vector (negative entries wrapped by the table's height), the take's in-range mask and its fill with the
  not-a-number word, written with exactly the operations the program's host stretches apply.
-/
import proofs.«408546_j30382598652103_2_alg».proof.KernelIdeal
import proofs.«408546_j30382598652103_2_alg».proof.Proof.Gen.KernelIdeal

noncomputable section

namespace Cert.KernelIdeal.Val

open Cert.KernelIdeal Idealize.ShloMosaic
open Facts₀ Facts

variable {F : FTy → Type} [FloatOps F]

/-- The start-index column of a take: entry i is s i, plus 50000 where s i is negative. -/
def widx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The take's mask: bit i says that the wrapped index lies in 0 .. 49999. -/
def takeMask (s : IVec S800000 32) : IVec S800000 1 :=
  Host.reduce IntOp.andi
    (andi (cmpi .sge (widx s) (broadcastInDim S800000x1 ![] bcast_S_S800000x1 (constantI S_ 32 0#32)))
      (cmpi .sle (widx s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- `jnp.take(x, s, axis=0)` in its default mode: the gathered rows where the mask is set, the not-a-number word elsewhere. -/
def take (x : FVec F S50000x64 .f32) (s : IVec S800000 32) : FVec F S800000x64 .f32 :=
  select (broadcastInDim S800000x64 ![0] bcast_S800000_S800000x64_0 (takeMask s))
    (Host.gather gather_S50000x64_S800000x1_S800000x64_1_0_n_n_0_1_164 x (widx s))
    (broadcastInDim S800000x64 ![] bcast_S_S800000x64 (constant S_ .f32 0x7FC00000#32))

/-- Every entry of an index vector is a row of the 50000-row table, as the two signed word comparisons say it. -/
def InRange (s : IVec S800000 32) : Prop :=
  ∀ i : S800000.Idx, IntOp.cmpi .sge (s i) 0#32 = 1#1 ∧ IntOp.cmpi .sle (s i) 49999#32 = 1#1

end Cert.KernelIdeal.Val

end
-- ==== Proof.Spec.lean ====
/-
  The mathematics of one message-passing layer over the extended reals, index by index.

  Nodes carry two feature rows (h and rnf, 64 columns each); an edge i carries its own feature row e_i and the
  two node rows its endpoints select. All the arithmetic below is written over explicit coordinates: an array
  of shape [n, c] is a function of a rank-2 index, `of2 f` is the array whose entry (r, j) is `f r j`.

  * `mm A W` is the plain product: entry (r, j) is the sum over k < 64 of A(r, k) · W(k, j).
  * `proj` is the pre-projection of the node table: h·Wh + rnf·Wr.
  * `mlp z W b` is the second half of a two-layer perceptron: max(z, 0)·W + b, b broadcast along the rows.
  * `msgZ` / `updZ` are the first halves (before the ReLU) of the message and of the update network, in the
    order in which the split-weight form adds its terms.
  * `rows W off` is the 64-row band of a taller weight matrix that starts at row `off`.
-/
import Idealize.ShloMosaic.PureOps.Ideal
import Idealize.ShloMosaic.Lib.ValueIdx

noncomputable section

open scoped BigOperators

namespace Cert.Mp

open Idealize.ShloMosaic Idealize.ShloMosaic.ValueIdx

/-- An [r, c] array of extended reals. -/
abbrev A2 (r c : Nat) : Type := (⟨2, ![r, c]⟩ : Shape).Idx → EReal
/-- A length-c vector of extended reals. -/
abbrev A1 (c : Nat) : Type := (⟨1, ![c]⟩ : Shape).Idx → EReal

/-- The array whose entry (r, j) is `f r j`. -/
def of2 {r c : Nat} (f : Fin r → Fin c → EReal) : A2 r c := fun i => f (i 0) (i 1)

@[simp] theorem of2_ix2 {r c : Nat} (f : Fin r → Fin c → EReal) (p : Fin r) (q : Fin c) : of2 f (ix2 p q) = f p q := rfl

/-- Entry (r, j) of the product A·W with 64 contracted columns. -/
def mmAt {n : Nat} (A : A2 n 64) (W : A2 64 64) (r : Fin n) (j : Fin 64) : EReal :=
  ∑ k : Fin 64, A (ix2 r k) * W (ix2 k j)

/-- The product A·W. -/
def mm {n : Nat} (A : A2 n 64) (W : A2 64 64) : A2 n 64 := of2 (mmAt A W)

/-- The 64-row band of W that starts at row `off`. -/
def rows {cw : Nat} (W : A2 cw 64) (off : Nat) (h : off + 64 ≤ cw) : A2 64 64 :=
  of2 fun k j => W (ix2 ⟨off + k.val, by have := k.isLt; omega⟩ j)

/-- The node table projected before the gather: h·Wh + rnf·Wr. -/
def proj {n : Nat} (h rnf : A2 n 64) (Wh Wr : A2 64 64) : A2 n 64 :=
  of2 fun r j => mmAt h Wh r j + mmAt rnf Wr r j

/-- max(z, 0)·W + b, with b broadcast along the rows. -/
def mlp {n : Nat} (z : A2 n 64) (W : A2 64 64) (b : A1 64) : A2 n 64 :=
  of2 fun r j => mmAt (of2 fun r' k => max (z (ix2 r' k)) 0) W r j + b (ix1 j)

/-- The message network before its ReLU, in the split-weight order: ((gs + e·W1b) + gd) + b1. -/
def msgZ {n : Nat} (gs e gd : A2 n 64) (W1b : A2 64 64) (b1 : A1 64) : A2 n 64 :=
  of2 fun r j => ((gs (ix2 r j) + mmAt e W1b r j) + gd (ix2 r j)) + b1 (ix1 j)

/-- One edge block's message: the split-weight first layer, ReLU, second layer. -/
def msg {n : Nat} (gs e gd : A2 n 64) (W1b : A2 64 64) (b1 : A1 64) (W2 : A2 64 64) (b2 : A1 64) : A2 n 64 :=
  mlp (msgZ gs e gd W1b b1) W2 b2

/-- The update network before its ReLU, in the split-weight order: (ms·U1a + h·U1b) + c1. -/
def updZ {n : Nat} (ms h : A2 n 64) (U1a U1b : A2 64 64) (c1 : A1 64) : A2 n 64 :=
  of2 fun r j => (mmAt ms U1a r j + mmAt h U1b r j) + c1 (ix1 j)

/-- The node update: the split-weight first layer, ReLU, second layer. -/
def upd {n : Nat} (ms h : A2 n 64) (U1a U1b : A2 64 64) (c1 : A1 64) (U2 : A2 64 64) (c2 : A1 64) : A2 n 64 :=
  mlp (updZ ms h U1a U1b c1) U2 c2

/-- Rows r0 .. r0 + nb − 1 of an array. -/
def band {n : Nat} (A : A2 n 64) (nb r0 : Nat) (h : r0 + nb ≤ n) : A2 nb 64 :=
  of2 fun r j => A (ix2 ⟨r0 + r.val, by have := r.isLt; omega⟩ j)

/-- Every function above is row-local: a band of the result is the function of the bands of the row arguments. -/
theorem band_proj {n : Nat} (h rnf : A2 n 64) (Wh Wr : A2 64 64) (nb r0 : Nat) (hb : r0 + nb ≤ n) :
    band (proj h rnf Wh Wr) nb r0 hb = proj (band h nb r0 hb) (band rnf nb r0 hb) Wh Wr := by
  funext i
  obtain ⟨p, q, rfl⟩ : ∃ (p : Fin nb) (q : Fin 64), i = ix2 p q := ⟨i 0, i 1, eq_ix2 i⟩
  rfl

theorem band_msg {n : Nat} (gs e gd : A2 n 64) (W1b : A2 64 64) (b1 : A1 64) (W2 : A2 64 64) (b2 : A1 64)
    (nb r0 : Nat) (hb : r0 + nb ≤ n) :
    band (msg gs e gd W1b b1 W2 b2) nb r0 hb
      = msg (band gs nb r0 hb) (band e nb r0 hb) (band gd nb r0 hb) W1b b1 W2 b2 := by
  funext i
  obtain ⟨p, q, rfl⟩ : ∃ (p : Fin nb) (q : Fin 64), i = ix2 p q := ⟨i 0, i 1, eq_ix2 i⟩
  rfl

theorem band_upd {n : Nat} (ms h : A2 n 64) (U1a U1b : A2 64 64) (c1 : A1 64) (U2 : A2 64 64) (c2 : A1 64)
    (nb r0 : Nat) (hb : r0 + nb ≤ n) :
    band (upd ms h U1a U1b c1 U2 c2) nb r0 hb
      = upd (band ms nb r0 hb) (band h nb r0 hb) U1a U1b c1 U2 c2 := by
  funext i
  obtain ⟨p, q, rfl⟩ : ∃ (p : Fin nb) (q : Fin 64), i = ix2 p q := ⟨i 0, i 1, eq_ix2 i⟩
  rfl

end Cert.Mp

end
-- ==== Proof.Chain.lean ====
/-
  The kernel program's buffers, boundary by boundary. Between the launch and the return the program alternates stretches of
  host operations with its three regions; the contents at each boundary are a fold over what came before. Here the fold is
  read back at the buffers the value depends on: an argument is never written, so it holds its launch contents at every
  boundary; a host stretch's result is its operation applied to the contents before it; a region's output array is the
  whole-array function of the arrays the region finds. Composed, the first result buffer at the last boundary is one
  function of the thirteen arguments.
-/
import proofs.«408546_j30382598652103_2_alg».proof.Proof.Gen.KernelIdeal.Frame
import proofs.«408546_j30382598652103_2_alg».proof.Proof.KTerms
import proofs.«408546_j30382598652103_2_alg».proof.Proof.Spec
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- A buffer no operation of a host stretch writes holds after the stretch what it held before. -/
macro "keep_ops" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Contents carried to a typed reference's buffer and back are the contents. -/
theorem ofBuf_toBuf {T : BufTy} (t : StableHlo.TRef sig T) (v : T.Contents (Elt F)) : t.ofBuf (t.toBuf v) = v := by
  obtain ⟨r, h, _, _⟩ := t
  subst h
  rfl

/-- The thirteen argument buffers. -/
def IsArg (b : Ref sig .tc) : Prop :=
  b ∈ [main_arg0, main_arg1, main_arg2, main_arg3, main_arg4, main_arg5, main_arg6, main_arg7, main_arg8, main_arg9,
    main_arg10, main_arg11, main_arg12]

/-! ## Region 0's entry -/

theorem W1_arg (c : Dev nD) (b : Ref sig .tc) (hb : IsArg b) :
    W1 m ρ c (Proc.devRef .tc b) = m ((c : Thread nD τ).loc b) := by
  show StableHlo.after hostOps0 (W0 m ρ c) (Proc.devRef .tc b) = W0 m ρ c (Proc.devRef .tc b)
  simp only [IsArg, List.mem_cons, List.mem_singleton, List.not_mem_nil, or_false] at hb
  rcases hb with rfl | rfl | rfl | rfl | rfl | rfl | rfl | rfl | rfl | rfl | rfl | rfl | rfl <;> keep_ops hostOps0

theorem W1_v0 (c : Dev nD) : W1 m ρ c (Proc.devRef .tc main_v0)
    = extractStridedSlice S64x64 ![0, 0] (m ((c : Thread nD τ).loc main_arg5)) slices_S320x64_S64x64_0_0 := by
  show StableHlo.after hostOps0 (W0 m ρ c) (Proc.devRef .tc main_v0) = _
  after_results <;> rfl

theorem W1_v1 (c : Dev nD) : W1 m ρ c (Proc.devRef .tc main_v1)
    = extractStridedSlice S64x64 ![64, 0] (m ((c : Thread nD τ).loc main_arg5)) slices_S320x64_S64x64_64_0 := by
  show StableHlo.after hostOps0 (W0 m ρ c) (Proc.devRef .tc main_v1) = _
  after_results <;> rfl
theorem W1_v2 (c : Dev nD) : W1 m ρ c (Proc.devRef .tc main_v2)
    = extractStridedSlice S64x64 ![128, 0] (m ((c : Thread nD τ).loc main_arg5)) slices_S320x64_S64x64_128_0 := by
  show StableHlo.after hostOps0 (W0 m ρ c) (Proc.devRef .tc main_v2) = _
  after_results <;> rfl
theorem W1_v3 (c : Dev nD) : W1 m ρ c (Proc.devRef .tc main_v3)
    = extractStridedSlice S64x64 ![192, 0] (m ((c : Thread nD τ).loc main_arg5)) slices_S320x64_S64x64_192_0 := by
  show StableHlo.after hostOps0 (W0 m ρ c) (Proc.devRef .tc main_v3) = _
  after_results <;> rfl
theorem W1_v4 (c : Dev nD) : W1 m ρ c (Proc.devRef .tc main_v4)
    = extractStridedSlice S64x64 ![256, 0] (m ((c : Thread nD τ).loc main_arg5)) slices_S320x64_S64x64_256_0 := by
  show StableHlo.after hostOps0 (W0 m ρ c) (Proc.devRef .tc main_v4) = _
  after_results <;> rfl

/-! ## Region 0's exit -/

/-- Region 0 writes no argument: the two it reads through a window end as entered, the others it does not touch. -/
theorem W2_arg (c : Dev nD) (b : Ref sig .tc) (hb : IsArg b) :
    W2 m ρ c (Proc.devRef .tc b) = m ((c : Thread nD τ).loc b) := by
  refine Eq.trans ?_ (W1_arg m ρ c b hb)
  simp only [IsArg, List.mem_cons, List.mem_singleton, List.not_mem_nil, or_false] at hb
  rcases hb with rfl | rfl | rfl | rfl | rfl | rfl | rfl | rfl | rfl | rfl | rfl | rfl | rfl
  · exact (W2_arr m ρ c 0).trans (((dat0 (V1 m ρ) c).arrAt_in 0 rfl _).trans (A_eq0 (V1 m ρ) c 0))
  · exact W2_of_ne m ρ c main_arg1 (by decide)
  · exact (W2_arr m ρ c 1).trans (((dat0 (V1 m ρ) c).arrAt_in 1 rfl _).trans (A_eq0 (V1 m ρ) c 1))
  · exact W2_of_ne m ρ c main_arg3 (by decide)
  · exact W2_of_ne m ρ c main_arg4 (by decide)
  · exact W2_of_ne m ρ c main_arg5 (by decide)
  · exact W2_of_ne m ρ c main_arg6 (by decide)
  · exact W2_of_ne m ρ c main_arg7 (by decide)
  · exact W2_of_ne m ρ c main_arg8 (by decide)
  · exact W2_of_ne m ρ c main_arg9 (by decide)
  · exact W2_of_ne m ρ c main_arg10 (by decide)
  · exact W2_of_ne m ρ c main_arg11 (by decide)
  · exact W2_of_ne m ρ c main_arg12 (by decide)

theorem W2_v2 (c : Dev nD) : W2 m ρ c (Proc.devRef .tc main_v2) = W1 m ρ c (Proc.devRef .tc main_v2) :=
  W2_of_ne m ρ c main_v2 (by decide)

/-! ## After the first take (region 1's first gathered operand) -/

theorem W3_arg (c : Dev nD) (b : Ref sig .tc) (hb : IsArg b) :
    W3 m ρ c (Proc.devRef .tc b) = m ((c : Thread nD τ).loc b) := by
  refine Eq.trans ?_ (W2_arg m ρ c b hb)
  show StableHlo.after hostOps1 (W2 m ρ c) (Proc.devRef .tc b) = W2 m ρ c (Proc.devRef .tc b)
  simp only [IsArg, List.mem_cons, List.mem_singleton, List.not_mem_nil, or_false] at hb
  rcases hb with rfl | rfl | rfl | rfl | rfl | rfl | rfl | rfl | rfl | rfl | rfl | rfl | rfl <;> keep_ops hostOps1

theorem W3_v2 (c : Dev nD) : W3 m ρ c (Proc.devRef .tc main_v2) = W2 m ρ c (Proc.devRef .tc main_v2) := by
  show StableHlo.after hostOps1 (W2 m ρ c) (Proc.devRef .tc main_v2) = _
  keep_ops hostOps1
theorem W3_v5_1 (c : Dev nD) : W3 m ρ c (Proc.devRef .tc main_v5_1) = W2 m ρ c (Proc.devRef .tc main_v5_1) := by
  show StableHlo.after hostOps1 (W2 m ρ c) (Proc.devRef .tc main_v5_1) = _
  keep_ops hostOps1

set_option maxHeartbeats 1000000 in
/-- The first take's result: the take of region 0's first output at the first index vector. -/
theorem W3_v6 (c : Dev nD) : W3 m ρ c (Proc.devRef .tc main_v6)
    = take (F := F) (W2 m ρ c (Proc.devRef .tc main_v5_0)) (W2 m ρ c (Proc.devRef .tc main_arg3)) := by
  show StableHlo.after hostOps1 (W2 m ρ c) (Proc.devRef .tc main_v6) = _
  generalize W2 m ρ c = V
  unfold take takeMask widx
  after_results
  simp only [ofBuf_toBuf]
  have e3 : (StableHlo.TRef.of main_arg3 : StableHlo.TRef sig ⟨S800000, .i32⟩).ofBuf (V (Proc.devRef .tc main_arg3))
      = V (Proc.devRef .tc main_arg3) := rfl
  have e5 : (StableHlo.TRef.of main_v5_0 : StableHlo.TRef sig ⟨S50000x64, .f32⟩).ofBuf (V (Proc.devRef .tc main_v5_0))
      = V (Proc.devRef .tc main_v5_0) := rfl
  have e6 : ∀ x : (⟨S800000x64, .f32⟩ : BufTy).Contents (Elt F),
      (StableHlo.TRef.of main_v6 : StableHlo.TRef sig ⟨S800000x64, .f32⟩).toBuf x = x := fun _ => rfl
  rw [e6, e3, e5]

/-! ## After the second take (region 1's entry) -/

theorem W4_arg (c : Dev nD) (b : Ref sig .tc) (hb : IsArg b) :
    W4 m ρ c (Proc.devRef .tc b) = m ((c : Thread nD τ).loc b) := by
  refine Eq.trans ?_ (W3_arg m ρ c b hb)
  show StableHlo.after hostOps1_1 (W3 m ρ c) (Proc.devRef .tc b) = W3 m ρ c (Proc.devRef .tc b)
  simp only [IsArg, List.mem_cons, List.mem_singleton, List.not_mem_nil, or_false] at hb
  rcases hb with rfl | rfl | rfl | rfl | rfl | rfl | rfl | rfl | rfl | rfl | rfl | rfl | rfl <;> keep_ops hostOps1_1

theorem W4_v2 (c : Dev nD) : W4 m ρ c (Proc.devRef .tc main_v2) = W3 m ρ c (Proc.devRef .tc main_v2) := by
  show StableHlo.after hostOps1_1 (W3 m ρ c) (Proc.devRef .tc main_v2) = _
  keep_ops hostOps1_1
theorem W4_v6 (c : Dev nD) : W4 m ρ c (Proc.devRef .tc main_v6) = W3 m ρ c (Proc.devRef .tc main_v6) := by
  show StableHlo.after hostOps1_1 (W3 m ρ c) (Proc.devRef .tc main_v6) = _
  keep_ops hostOps1_1

set_option maxHeartbeats 1000000 in
/-- The second take's result: the take of region 0's second output at the second index vector. -/
theorem W4_v7 (c : Dev nD) : W4 m ρ c (Proc.devRef .tc main_v7)
    = take (F := F) (W3 m ρ c (Proc.devRef .tc main_v5_1)) (W3 m ρ c (Proc.devRef .tc main_arg4)) := by
  show StableHlo.after hostOps1_1 (W3 m ρ c) (Proc.devRef .tc main_v7) = _
  generalize W3 m ρ c = V
  unfold take takeMask widx
  after_results
  simp only [ofBuf_toBuf]
  have e3 : (StableHlo.TRef.of main_arg4 : StableHlo.TRef sig ⟨S800000, .i32⟩).ofBuf (V (Proc.devRef .tc main_arg4))
      = V (Proc.devRef .tc main_arg4) := rfl
  have e5 : (StableHlo.TRef.of main_v5_1 : StableHlo.TRef sig ⟨S50000x64, .f32⟩).ofBuf (V (Proc.devRef .tc main_v5_1))
      = V (Proc.devRef .tc main_v5_1) := rfl
  have e6 : ∀ x : (⟨S800000x64, .f32⟩ : BufTy).Contents (Elt F),
      (StableHlo.TRef.of main_v7 : StableHlo.TRef sig ⟨S800000x64, .f32⟩).toBuf x = x := fun _ => rfl
  rw [e6, e3, e5]

/-! ## Region 1's exit -/

/-- Region 1 writes no argument. -/
theorem W5_arg (c : Dev nD) (b : Ref sig .tc) (hb : IsArg b) :
    W5 m ρ c (Proc.devRef .tc b) = m ((c : Thread nD τ).loc b) := by
  refine Eq.trans ?_ (W4_arg m ρ c b hb)
  simp only [IsArg, List.mem_cons, List.mem_singleton, List.not_mem_nil, or_false] at hb
  rcases hb with rfl | rfl | rfl | rfl | rfl | rfl | rfl | rfl | rfl | rfl | rfl | rfl | rfl
  · exact W5_of_ne m ρ c main_arg0 (by decide)
  · exact (W5_arr m ρ c 1).trans (((dat1 (V4 m ρ) c).arrAt_in 1 rfl _).trans (A_eq1 (V4 m ρ) c 1))
  · exact W5_of_ne m ρ c main_arg2 (by decide)
  · exact W5_of_ne m ρ c main_arg3 (by decide)
  · exact W5_of_ne m ρ c main_arg4 (by decide)
  · exact W5_of_ne m ρ c main_arg5 (by decide)
  · exact (W5_arr m ρ c 4).trans (((dat1 (V4 m ρ) c).arrAt_in 4 rfl _).trans (A_eq1 (V4 m ρ) c 4))
  · exact (W5_arr m ρ c 5).trans (((dat1 (V4 m ρ) c).arrAt_in 5 rfl _).trans (A_eq1 (V4 m ρ) c 5))
  · exact (W5_arr m ρ c 6).trans (((dat1 (V4 m ρ) c).arrAt_in 6 rfl _).trans (A_eq1 (V4 m ρ) c 6))
  · exact W5_of_ne m ρ c main_arg9 (by decide)
  · exact W5_of_ne m ρ c main_arg10 (by decide)
  · exact W5_of_ne m ρ c main_arg11 (by decide)
  · exact W5_of_ne m ρ c main_arg12 (by decide)

/-! ## Region 2's entry -/

theorem W6_arg (c : Dev nD) (b : Ref sig .tc) (hb : IsArg b) :
    W6 m ρ c (Proc.devRef .tc b) = m ((c : Thread nD τ).loc b) := by
  refine Eq.trans ?_ (W5_arg m ρ c b hb)
  show StableHlo.after hostOps2 (W5 m ρ c) (Proc.devRef .tc b) = W5 m ρ c (Proc.devRef .tc b)
  simp only [IsArg, List.mem_cons, List.mem_singleton, List.not_mem_nil, or_false] at hb
  rcases hb with rfl | rfl | rfl | rfl | rfl | rfl | rfl | rfl | rfl | rfl | rfl | rfl | rfl <;> keep_ops hostOps2

/-- The scatter-add of region 1's output into a zero table, at the second index vector. -/
theorem W6_v11 (c : Dev nD) : W6 m ρ c (Proc.devRef .tc main_v11)
    = Host.scatterAdd scatter_S50000x64_S800000x1_S800000x64_1_0_0_1
        (broadcastInDim S50000x64 ![] bcast_S_S50000x64 (constant S_ .f32 0x00000000#32))
        (broadcastInDim S800000x1 ![0] bcast_S800000_S800000x1_0 (W5 m ρ c (Proc.devRef .tc main_arg4)))
        (W5 m ρ c (Proc.devRef .tc main_v8)) := by
  show StableHlo.after hostOps2 (W5 m ρ c) (Proc.devRef .tc main_v11) = _
  generalize W5 m ρ c = V
  after_results <;> rfl
theorem W6_v12 (c : Dev nD) : W6 m ρ c (Proc.devRef .tc main_v12)
    = extractStridedSlice S64x64 ![0, 0] (W5 m ρ c (Proc.devRef .tc main_arg9)) slices_S128x64_S64x64_0_0 := by
  show StableHlo.after hostOps2 (W5 m ρ c) (Proc.devRef .tc main_v12) = _
  generalize W5 m ρ c = V
  after_results <;> rfl
theorem W6_v13 (c : Dev nD) : W6 m ρ c (Proc.devRef .tc main_v13)
    = extractStridedSlice S64x64 ![64, 0] (W5 m ρ c (Proc.devRef .tc main_arg9)) slices_S128x64_S64x64_64_0 := by
  show StableHlo.after hostOps2 (W5 m ρ c) (Proc.devRef .tc main_v13) = _
  generalize W5 m ρ c = V
  after_results <;> rfl

end Cert.KernelIdeal.Val

end
-- ==== Proof.Region0.lean ====
/-
  The first region's two result arrays as whole-array functions of the arrays the region finds: the node table
  projected through two pairs of 64-row weight bands.
-/
import proofs.«408546_j30382598652103_2_alg».proof.Proof.Gen.KernelIdeal.Frame
import proofs.«408546_j30382598652103_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-! ## The block product at an index -/

theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64×64 band, into the zero accumulator, at entry (p, q): the sum over the 64
    contracted columns. -/
theorem matmul_zero_apply (x : FVec Ideal S10000x64 .f32) (W : FVec Ideal S64x64 .f32) (p : Fin 10000) (q : Fin 64) :
    matmul (F := Ideal) (φ₁ := .f32) (φ₂ := .f32) dot_S10000x64_S64x64_S10000x64_1_0_0_1_n_n none x W (constant S10000x64 .f32 0x00000000#32) (ix2 p q)
      = Cert.Mp.mmAt x W p q := by
  simp only [matmul]
  rw [Ideal.matmul_constant_zero_apply, ← Equiv.sum_comp (ValueIdx.contrEquiv1 dot_S10000x64_S64x64_S10000x64_1_0_0_1_n_n 64 rfl rfl).symm]
  unfold Cert.Mp.mmAt
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The body's two results are the projection at block size -/

theorem pay1_eq (x0 x1 : Vec Ideal S10000x64 .f32) (x2 x3 : Vec Ideal S64x64 .f32) :
    k0_pay1 (F := Ideal) x0 x1 x2 x3 = Cert.Mp.proj x0 x1 x2 x3 := by
  funext i
  obtain ⟨p, q, rfl⟩ : ∃ (p : Fin 10000) (q : Fin 64), i = ix2 p q := ⟨i 0, i 1, eq_ix2 i⟩
  unfold k0_pay1
  simp only [shapeCast_self]
  refine (addf_apply _ _ _).trans ?_
  rw [matmul_zero_apply, matmul_zero_apply]
  rfl

theorem pay2_eq (x0 x1 : Vec Ideal S10000x64 .f32) (x4 x5 : Vec Ideal S64x64 .f32) :
    k0_pay2 (F := Ideal) x0 x1 x4 x5 = Cert.Mp.proj x0 x1 x4 x5 := by
  funext i
  obtain ⟨p, q, rfl⟩ : ∃ (p : Fin 10000) (q : Fin 64), i = ix2 p q := ⟨i 0, i 1, eq_ix2 i⟩
  unfold k0_pay2
  simp only [shapeCast_self]
  refine (addf_apply _ _ _).trans ?_
  rw [matmul_zero_apply, matmul_zero_apply]
  rfl

/-! ## The windows' blocks as bands of their arrays -/

theorem hz : (![0, 0] : Fin 2 → Nat) = fun _ => 0 := funext fun a => by fin_cases a <;> rfl

/-- The block indices at each of the five points: a row-blocked window's is (t, 0), a weight window's is (0, 0). -/
theorem idx_facts : ∀ t : Fin cfg0.N,
    (win0_0.index t (0 : Fin 2) = t.val ∧ win0_0.index t (1 : Fin 2) = 0)
  ∧ (win0_1.index t (0 : Fin 2) = t.val ∧ win0_1.index t (1 : Fin 2) = 0)
  ∧ (win0_2.index t (0 : Fin 2) = 0 ∧ win0_2.index t (1 : Fin 2) = 0)
  ∧ (win0_3.index t (0 : Fin 2) = 0 ∧ win0_3.index t (1 : Fin 2) = 0)
  ∧ (win0_4.index t (0 : Fin 2) = 0 ∧ win0_4.index t (1 : Fin 2) = 0)
  ∧ (win0_5.index t (0 : Fin 2) = 0 ∧ win0_5.index t (1 : Fin 2) = 0)
  ∧ (win0_6.index t (0 : Fin 2) = t.val ∧ win0_6.index t (1 : Fin 2) = 0)
  ∧ (win0_7.index t (0 : Fin 2) = t.val ∧ win0_7.index t (1 : Fin 2) = 0) :=
  (by decide +kernel : ∀ t : Fin grid0.N, _)

/-- The five row blocks of 10000 stay inside the 50000 rows. -/
theorem rows_le (t : Fin cfg0.N) : t.val * 10000 + 10000 ≤ 50000 := by
  have h : t.val < 5 := Nat.lt_of_lt_of_eq t.isLt N_0
  omega

theorem blk0 (t : Fin cfg0.N) (G : S50000x64.Idx → EReal) :
    (((cfg0.win 0).blk t).view.read (Elt Ideal) G : S10000x64.Idx → EReal) = Cert.Mp.band G 10000 (t.val * 10000) (rows_le t) := by
  funext x
  obtain ⟨p, q, rfl⟩ : ∃ (p : Fin 10000) (q : Fin 64), x = ix2 p q := ⟨x 0, x 1, eq_ix2 x⟩
  obtain ⟨e0, e1⟩ := (idx_facts t).1
  rw [View.read_apply]
  show G _ = G _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 64 + 1 * q.val = q.val; rw [e1]; omega

theorem blk1 (t : Fin cfg0.N) (G : S50000x64.Idx → EReal) :
    (((cfg0.win 1).blk t).view.read (Elt Ideal) G : S10000x64.Idx → EReal) = Cert.Mp.band G 10000 (t.val * 10000) (rows_le t) := by
  funext x
  obtain ⟨p, q, rfl⟩ : ∃ (p : Fin 10000) (q : Fin 64), x = ix2 p q := ⟨x 0, x 1, eq_ix2 x⟩
  obtain ⟨e0, e1⟩ := (idx_facts t).2.1
  rw [View.read_apply]
  show G _ = G _
  congr 1
  funext a
  apply Fin.ext
  match a with
  | ⟨0, _⟩ => show win0_1.index t (0 : Fin 2) * 10000 + 1 * p.val = t.val * 10000 + p.val; rw [e0]; omega
  | ⟨1, _⟩ => show win0_1.index t (1 : Fin 2) * 64 + 1 * q.val = q.val; rw [e1]; omega

theorem blk2 (t : Fin cfg0.N) (G : S64x64.Idx → EReal) :
    (((cfg0.win 2).blk t).view.read (Elt Ideal) G : S64x64.Idx → EReal) = G := by
  funext x
  obtain ⟨p, q, rfl⟩ : ∃ (p : Fin 64) (q : Fin 64), x = ix2 p q := ⟨x 0, x 1, eq_ix2 x⟩
  obtain ⟨e0, e1⟩ := (idx_facts t).2.2.1
  rw [View.read_apply]
  show G _ = G _
  congr 1
  funext a
  apply Fin.ext
  match a with
  | ⟨0, _⟩ => show win0_2.index t (0 : Fin 2) * 64 + 1 * p.val = p.val; rw [e0]; omega
  | ⟨1, _⟩ => show win0_2.index t (1 : Fin 2) * 64 + 1 * q.val = q.val; rw [e1]; omega

theorem blk3 (t : Fin cfg0.N) (G : S64x64.Idx → EReal) :
    (((cfg0.win 3).blk t).view.read (Elt Ideal) G : S64x64.Idx → EReal) = G := by
  funext x
  obtain ⟨p, q, rfl⟩ : ∃ (p : Fin 64) (q : Fin 64), x = ix2 p q := ⟨x 0, x 1, eq_ix2 x⟩
  obtain ⟨e0, e1⟩ := (idx_facts t).2.2.2.1
  rw [View.read_apply]
  show G _ = G _
  congr 1
  funext a
  apply Fin.ext
  match a with
  | ⟨0, _⟩ => show win0_3.index t (0 : Fin 2) * 64 + 1 * p.val = p.val; rw [e0]; omega
  | ⟨1, _⟩ => show win0_3.index t (1 : Fin 2) * 64 + 1 * q.val = q.val; rw [e1]; omega

theorem blk4 (t : Fin cfg0.N) (G : S64x64.Idx → EReal) :
    (((cfg0.win 4).blk t).view.read (Elt Ideal) G : S64x64.Idx → EReal) = G := by
  funext x
  obtain ⟨p, q, rfl⟩ : ∃ (p : Fin 64) (q : Fin 64), x = ix2 p q := ⟨x 0, x 1, eq_ix2 x⟩
  obtain ⟨e0, e1⟩ := (idx_facts t).2.2.2.2.1
  rw [View.read_apply]
  show G _ = G _
  congr 1
  funext a
  apply Fin.ext
  match a with
  | ⟨0, _⟩ => show win0_4.index t (0 : Fin 2) * 64 + 1 * p.val = p.val; rw [e0]; omega
  | ⟨1, _⟩ => show win0_4.index t (1 : Fin 2) * 64 + 1 * q.val = q.val; rw [e1]; omega

theorem blk5 (t : Fin cfg0.N) (G : S64x64.Idx → EReal) :
    (((cfg0.win 5).blk t).view.read (Elt Ideal) G : S64x64.Idx → EReal) = G := by
  funext x
  obtain ⟨p, q, rfl⟩ : ∃ (p : Fin 64) (q : Fin 64), x = ix2 p q := ⟨x 0, x 1, eq_ix2 x⟩
  obtain ⟨e0, e1⟩ := (idx_facts t).2.2.2.2.2.1
  rw [View.read_apply]
  show G _ = G _
  congr 1
  funext a
  apply Fin.ext
  match a with
  | ⟨0, _⟩ => show win0_5.index t (0 : Fin 2) * 64 + 1 * p.val = p.val; rw [e0]; omega
  | ⟨1, _⟩ => show win0_5.index t (1 : Fin 2) * 64 + 1 * q.val = q.val; rw [e1]; omega

theorem blk6 (t : Fin cfg0.N) (G : S50000x64.Idx → EReal) :
    (((cfg0.win 6).blk t).view.read (Elt Ideal) G : S10000x64.Idx → EReal) = Cert.Mp.band G 10000 (t.val * 10000) (rows_le t) := by
  funext x
  obtain ⟨p, q, rfl⟩ : ∃ (p : Fin 10000) (q : Fin 64), x = ix2 p q := ⟨x 0, x 1, eq_ix2 x⟩
  obtain ⟨e0, e1⟩ := (idx_facts t).2.2.2.2.2.2.1
  rw [View.read_apply]
  show G _ = G _
  congr 1
  funext a
  apply Fin.ext
  match a with
  | ⟨0, _⟩ => show win0_6.index t (0 : Fin 2) * 10000 + 1 * p.val = t.val * 10000 + p.val; rw [e0]; omega
  | ⟨1, _⟩ => show win0_6.index t (1 : Fin 2) * 64 + 1 * q.val = q.val; rw [e1]; omega

theorem blk7 (t : Fin cfg0.N) (G : S50000x64.Idx → EReal) :
    (((cfg0.win 7).blk t).view.read (Elt Ideal) G : S10000x64.Idx → EReal) = Cert.Mp.band G 10000 (t.val * 10000) (rows_le t) := by
  funext x
  obtain ⟨p, q, rfl⟩ : ∃ (p : Fin 10000) (q : Fin 64), x = ix2 p q := ⟨x 0, x 1, eq_ix2 x⟩
  obtain ⟨e0, e1⟩ := (idx_facts t).2.2.2.2.2.2.2
  rw [View.read_apply]
  show G _ = G _
  congr 1
  funext a
  apply Fin.ext
  match a with
  | ⟨0, _⟩ => show win0_7.index t (0 : Fin 2) * 10000 + 1 * p.val = t.val * 10000 + p.val; rw [e0]; omega
  | ⟨1, _⟩ => show win0_7.index t (1 : Fin 2) * 64 + 1 * q.val = q.val; rw [e1]; omega

/-! ## What each point writes back, and the whole arrays -/

/-- What point t writes back to this result: rows 10000·t .. 10000·t + 9999 of the projected table. -/
theorem flushed6_eq (c : Dev nD) (t : Fin cfg0.N) :
    (dat0 (F := Ideal) V c).flushed 6 t
      = ((cfg0.win 6).blk t).view.read (Elt Ideal) (Cert.Mp.proj (V c main_arg0) (V c main_arg2) (V c main_v0) (V c main_v1)) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz]
  rw [pay1_eq]
  have e0 : (iblk0 V c 0 t : S10000x64.Idx → EReal) = Cert.Mp.band (V c main_arg0) 10000 (t.val * 10000) (rows_le t) := blk0 t (V c main_arg0)
  have e1 : (iblk0 V c 1 t : S10000x64.Idx → EReal) = Cert.Mp.band (V c main_arg2) 10000 (t.val * 10000) (rows_le t) := blk1 t (V c main_arg2)
  have e2 : (iblk0 V c 2 t : S64x64.Idx → EReal) = V c main_v0 := blk2 t (V c main_v0)
  have e3 : (iblk0 V c 3 t : S64x64.Idx → EReal) = V c main_v1 := blk3 t (V c main_v1)
  rw [e0, e1, e2, e3, blk6 t, Cert.Mp.band_proj]
  rfl

/-- What point t writes back to this result: rows 10000·t .. 10000·t + 9999 of the projected table. -/
theorem flushed7_eq (c : Dev nD) (t : Fin cfg0.N) :
    (dat0 (F := Ideal) V c).flushed 7 t
      = ((cfg0.win 7).blk t).view.read (Elt Ideal) (Cert.Mp.proj (V c main_arg0) (V c main_arg2) (V c main_v3) (V c main_v4)) := by
  show (cfg0.win 7).cut (grid0.coords t) ((dat0 V c).after 7 t) = _
  rw [after0_7]
  unfold out0_7
  rw [View.canon_unit_zero hz]
  simp only [View.ld_unit_zero (S := S10000x64) hz, View.ld_unit_zero (S := S64x64) hz]
  rw [pay2_eq]
  have e0 : (iblk0 V c 0 t : S10000x64.Idx → EReal) = Cert.Mp.band (V c main_arg0) 10000 (t.val * 10000) (rows_le t) := blk0 t (V c main_arg0)
  have e1 : (iblk0 V c 1 t : S10000x64.Idx → EReal) = Cert.Mp.band (V c main_arg2) 10000 (t.val * 10000) (rows_le t) := blk1 t (V c main_arg2)
  have e2 : (iblk0 V c 4 t : S64x64.Idx → EReal) = V c main_v3 := blk4 t (V c main_v3)
  have e3 : (iblk0 V c 5 t : S64x64.Idx → EReal) = V c main_v4 := blk5 t (V c main_v4)
  rw [e0, e1, e2, e3, blk7 t, Cert.Mp.band_proj]
  rfl

/-- Row r of this result is in the block of point r / 10000. -/
theorem cover6 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by rw [show cfg0.N = 5 from N_0]; omega⟩, rfl⟩
  obtain ⟨e0, e1⟩ := (idx_facts t).2.2.2.2.2.2.1
  refine ⟨t, flush0_6 t, ?_⟩
  show i ∈ ((View.whole main_v5_0).slice (win0_6.rect t)).set
  rw [View.set_slice_whole, Rect.mem_set_unit]
  intro a
  match a with
  | ⟨0, _⟩ => show win0_6.index t (0 : Fin 2) * 10000 ≤ (i 0).val ∧ (i 0).val < win0_6.index t (0 : Fin 2) * 10000 + 10000; rw [e0]; omega
  | ⟨1, _⟩ => show win0_6.index t (1 : Fin 2) * 64 ≤ (i 1).val ∧ (i 1).val < win0_6.index t (1 : Fin 2) * 64 + 64; rw [e1]; omega

/-- Row r of this result is in the block of point r / 10000. -/
theorem cover7 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by rw [show cfg0.N = 5 from N_0]; omega⟩, rfl⟩
  obtain ⟨e0, e1⟩ := (idx_facts t).2.2.2.2.2.2.2
  refine ⟨t, flush0_7 t, ?_⟩
  show i ∈ ((View.whole main_v5_1).slice (win0_7.rect t)).set
  rw [View.set_slice_whole, Rect.mem_set_unit]
  intro a
  match a with
  | ⟨0, _⟩ => show win0_7.index t (0 : Fin 2) * 10000 ≤ (i 0).val ∧ (i 0).val < win0_7.index t (0 : Fin 2) * 10000 + 10000; rw [e0]; omega
  | ⟨1, _⟩ => show win0_7.index t (1 : Fin 2) * 64 ≤ (i 1).val ∧ (i 1).val < win0_7.index t (1 : Fin 2) * 64 + 64; rw [e1]; omega

/-- The first projected table: h·Wa + rnf·Wa'. -/
theorem arr0_6 (c : Dev nD) :
    (dat0 (F := Ideal) V c).arrAt 6 cfg0.N
      = Cert.Mp.proj (V c main_arg0) (V c main_arg2) (V c main_v0) (V c main_v1) := by
  exact (dat0 V c).arrAt_eq_of_cover 6 (Cert.Mp.proj (V c main_arg0) (V c main_arg2) (V c main_v0) (V c main_v1))
    (fun t _ => flushed6_eq V c t) cover6

/-- The second projected table: h·Wc + rnf·Wc'. -/
theorem arr0_7 (c : Dev nD) :
    (dat0 (F := Ideal) V c).arrAt 7 cfg0.N
      = Cert.Mp.proj (V c main_arg0) (V c main_arg2) (V c main_v3) (V c main_v4) := by
  exact (dat0 V c).arrAt_eq_of_cover 7 (Cert.Mp.proj (V c main_arg0) (V c main_arg2) (V c main_v3) (V c main_v4))
    (fun t _ => flushed7_eq V c t) cover7

end Cert.KernelIdeal.Val0

end
-- ==== Proof.Region1.lean ====
/-
  The second region's result array as a whole-array function of the arrays the region finds: every edge's message.
-/
import proofs.«408546_j30382598652103_2_alg».proof.Proof.Gen.KernelIdeal.Frame
import proofs.«408546_j30382598652103_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat Cfg Window)

-- The TensorCore's buffer contents when the region is entered.
variable (V : (c : Dev nD) → (b : Ref sig .tc) → Buf (Elt Ideal) ((c : Thread nD τ).loc b))

/-! ## The product into a zero accumulator, read at an entry -/

theorem lhs_mm_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_mm_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_mm_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_mm_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Entry (p, q) of a block's product with a 64×64 matrix, accumulated from zero, is the sum over the 64 contracted columns. -/
theorem mm_zero_apply (A : FVec Ideal S8000x64 .f32) (W : FVec Ideal S64x64 .f32) (p : Fin 8000) (q : Fin 64) :
    matmul dot_S8000x64_S64x64_S8000x64_1_0_0_1_n_n none A W (constant (F := Ideal) S8000x64 .f32 0x00000000#32) (ix2 p q)
      = Cert.Mp.mmAt (n := 8000) A W p q := by
  simp only [matmul]
  rw [Ideal.matmul_constant_zero_apply, ← Equiv.sum_comp (ValueIdx.contrEquiv1 dot_S8000x64_S64x64_S8000x64_1_0_0_1_n_n 64 rfl rfl).symm]
  unfold Cert.Mp.mmAt
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic is the message function at block size -/

/-- A bias row, lifted to one row and broadcast over the block's rows, reads the bias at the column. -/
theorem bias_apply (b : FVec Ideal S64 .f32) (p : Fin 8000) (q : Fin 64) :
    broadcastTo S8000x64 (shapeCast S1x64 b shapeCasts_S64_S1x64) broadcasts_S1x64_S8000x64 (ix2 p q) = b (ix1 q) :=
  (broadcastTo_1b_ab_apply (shapeCast S1x64 b shapeCasts_S64_S1x64) broadcasts_S1x64_S8000x64 p q).trans
    (shapeCast_a_1a_apply b shapeCasts_S64_S1x64 0 q)

/-- The first layer before its ReLU, as one array. -/
theorem first_layer_eq (x0 x1 x2 : FVec Ideal S8000x64 .f32) (W1b : FVec Ideal S64x64 .f32) (b1 : FVec Ideal S64 .f32) :
    addf (addf (addf (shapeCast S8000x64 x0 shapeCasts_S8000x64_S8000x64)
        (matmul dot_S8000x64_S64x64_S8000x64_1_0_0_1_n_n none x1 (shapeCast S64x64 W1b shapeCasts_S64x64_S64x64) (constant (F := Ideal) S8000x64 .f32 0x00000000#32)))
        (shapeCast S8000x64 x2 shapeCasts_S8000x64_S8000x64))
        (broadcastTo S8000x64 (shapeCast S1x64 b1 shapeCasts_S64_S1x64) broadcasts_S1x64_S8000x64)
      = Cert.Mp.msgZ (n := 8000) x0 x1 x2 W1b b1 := by
  rw [shapeCast_self x0, shapeCast_self x2, shapeCast_self W1b]
  funext i
  obtain ⟨p, q, rfl⟩ : ∃ (p : Fin 8000) (q : Fin 64), i = ix2 p q := ⟨i 0, i 1, eq_ix2 i⟩
  show ((x0 (ix2 p q) + _) + x2 (ix2 p q)) + _ = ((x0 (ix2 p q) + Cert.Mp.mmAt (n := 8000) x1 W1b p q) + x2 (ix2 p q)) + b1 (ix1 q)
  rw [mm_zero_apply, bias_apply]

/-- The ReLU against the broadcast zero, as one array. -/
theorem relu_eq (z : FVec Ideal S8000x64 .f32) :
    maximumf z (broadcast S8000x64 (Scalar.ofBits (F := Ideal) .f32 0x00000000#32))
      = Cert.Mp.of2 (r := 8000) (c := 64) fun r' k => max (z (ix2 r' k)) 0 := by
  funext i
  obtain ⟨p, q, rfl⟩ : ∃ (p : Fin 8000) (q : Fin 64), i = ix2 p q := ⟨i 0, i 1, eq_ix2 i⟩
  show max (z (ix2 p q)) (Ideal.ofBits .f32 0x00000000#32) = max (z (ix2 p q)) 0
  rw [Ideal.ofBits_zero_f32]

/-- The body's payload is the message function of its seven loaded blocks (the payload takes the first-layer weights
    before the second gathered projection). -/
theorem pay1_eq (x0 x1 : Vec Ideal S8000x64 .f32) (W1b : Vec Ideal S64x64 .f32) (x2 : Vec Ideal S8000x64 .f32) (b1 : Vec Ideal S64 .f32)
    (W2 : Vec Ideal S64x64 .f32) (b2 : Vec Ideal S64 .f32) :
    k1_pay1 (F := Ideal) x0 x1 W1b x2 b1 W2 b2 = Cert.Mp.msg (n := 8000) x0 x1 x2 W1b b1 W2 b2 := by
  unfold k1_pay1
  dsimp only
  rw [first_layer_eq, relu_eq]
  funext i
  obtain ⟨p, q, rfl⟩ : ∃ (p : Fin 8000) (q : Fin 64), i = ix2 p q := ⟨i 0, i 1, eq_ix2 i⟩
  show _ + _ = Cert.Mp.mmAt (n := 8000) (Cert.Mp.of2 fun r' k => max (Cert.Mp.msgZ (n := 8000) x0 x1 x2 W1b b1 (ix2 r' k)) 0) W2 p q + b2 (ix1 q)
  rw [mm_zero_apply, bias_apply]

/-! ## Each window's block at a point is a band of its array -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: a row-blocked window's block index is (t, 0), a weight's or a
    bias's is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A point's 8000 rows lie inside the 800000. -/
theorem rows_le (t : Fin cfg1.N) : t.val * 8000 + 8000 ≤ 800000 := by
  have h : t.val < 100 := lt_of_lt_of_eq t.isLt (show cfg1.N = 100 from N_1)
  omega

theorem iblk_0 (c : Dev nD) (t : Fin cfg1.N) :
    (iblk1 V c 0 t : Vec Ideal S8000x64 .f32) = Cert.Mp.band (n := 800000) (V c main_v6) 8000 (t.val * 8000) (rows_le t) := by
  have e0 : win1_0.index t (0 : Fin 2) = t.val := (idx_facts t).1
  have e1 : win1_0.index t (1 : Fin 2) = 0 := (idx_facts t).2.1
  funext j
  obtain ⟨p, q, rfl⟩ : ∃ (p : Fin 8000) (q : Fin 64), j = ix2 p q := ⟨j 0, j 1, eq_ix2 j⟩
  show V c main_v6 (((cfg1.win 0).blk t).view.emb (ix2 p q)) = V c main_v6 (ix2 ⟨t.val * 8000 + p.val, _⟩ q)
  refine congrArg (V c main_v6) (funext fun a => Fin.ext ?_)
  match a with
  | ⟨0, _⟩ => show win1_0.index t (0 : Fin 2) * 8000 + 1 * p.val = t.val * 8000 + p.val; omega
  | ⟨1, _⟩ => show win1_0.index t (1 : Fin 2) * 64 + 1 * q.val = q.val; omega

theorem iblk_1 (c : Dev nD) (t : Fin cfg1.N) :
    (iblk1 V c 1 t : Vec Ideal S8000x64 .f32) = Cert.Mp.band (n := 800000) (V c main_arg1) 8000 (t.val * 8000) (rows_le t) := by
  have e0 : win1_1.index t (0 : Fin 2) = t.val := (idx_facts t).2.2.1
  have e1 : win1_1.index t (1 : Fin 2) = 0 := (idx_facts t).2.2.2.1
  funext j
  obtain ⟨p, q, rfl⟩ : ∃ (p : Fin 8000) (q : Fin 64), j = ix2 p q := ⟨j 0, j 1, eq_ix2 j⟩
  show V c main_arg1 (((cfg1.win 1).blk t).view.emb (ix2 p q)) = V c main_arg1 (ix2 ⟨t.val * 8000 + p.val, _⟩ q)
  refine congrArg (V c main_arg1) (funext fun a => Fin.ext ?_)
  match a with
  | ⟨0, _⟩ => show win1_1.index t (0 : Fin 2) * 8000 + 1 * p.val = t.val * 8000 + p.val; omega
  | ⟨1, _⟩ => show win1_1.index t (1 : Fin 2) * 64 + 1 * q.val = q.val; omega

theorem iblk_2 (c : Dev nD) (t : Fin cfg1.N) :
    (iblk1 V c 2 t : Vec Ideal S8000x64 .f32) = Cert.Mp.band (n := 800000) (V c main_v7) 8000 (t.val * 8000) (rows_le t) := by
  have e0 : win1_2.index t (0 : Fin 2) = t.val := (idx_facts t).2.2.2.2.1
  have e1 : win1_2.index t (1 : Fin 2) = 0 := (idx_facts t).2.2.2.2.2.1
  funext j
  obtain ⟨p, q, rfl⟩ : ∃ (p : Fin 8000) (q : Fin 64), j = ix2 p q := ⟨j 0, j 1, eq_ix2 j⟩
  show V c main_v7 (((cfg1.win 2).blk t).view.emb (ix2 p q)) = V c main_v7 (ix2 ⟨t.val * 8000 + p.val, _⟩ q)
  refine congrArg (V c main_v7) (funext fun a => Fin.ext ?_)
  match a with
  | ⟨0, _⟩ => show win1_2.index t (0 : Fin 2) * 8000 + 1 * p.val = t.val * 8000 + p.val; omega
  | ⟨1, _⟩ => show win1_2.index t (1 : Fin 2) * 64 + 1 * q.val = q.val; omega

theorem iblk_3 (c : Dev nD) (t : Fin cfg1.N) :
    (iblk1 V c 3 t : Vec Ideal S64x64 .f32) = V c main_v2 := by
  have e0 : win1_3.index t (0 : Fin 2) = 0 := (idx_facts t).2.2.2.2.2.2.1
  have e1 : win1_3.index t (1 : Fin 2) = 0 := (idx_facts t).2.2.2.2.2.2.2.1
  funext j
  obtain ⟨p, q, rfl⟩ : ∃ (p : Fin 64) (q : Fin 64), j = ix2 p q := ⟨j 0, j 1, eq_ix2 j⟩
  show V c main_v2 (((cfg1.win 3).blk t).view.emb (ix2 p q)) = V c main_v2 (ix2 p q)
  refine congrArg (V c main_v2) (funext fun a => Fin.ext ?_)
  match a with
  | ⟨0, _⟩ => show win1_3.index t (0 : Fin 2) * 64 + 1 * p.val = p.val; omega
  | ⟨1, _⟩ => show win1_3.index t (1 : Fin 2) * 64 + 1 * q.val = q.val; omega

theorem iblk_4 (c : Dev nD) (t : Fin cfg1.N) :
    (iblk1 V c 4 t : Vec Ideal S64 .f32) = V c main_arg6 := by
  have e0 : win1_4.index t (0 : Fin 1) = 0 := (idx_facts t).2.2.2.2.2.2.2.2.1
  funext j
  obtain ⟨q, rfl⟩ : ∃ q : Fin 64, j = ix1 q := ⟨j 0, eq_ix1 j⟩
  show V c main_arg6 (((cfg1.win 4).blk t).view.emb (ix1 q)) = V c main_arg6 (ix1 q)
  refine congrArg (V c main_arg6) (funext fun a => Fin.ext ?_)
  match a with
  | ⟨0, _⟩ => show win1_4.index t (0 : Fin 1) * 64 + 1 * q.val = q.val; omega

theorem iblk_5 (c : Dev nD) (t : Fin cfg1.N) :
    (iblk1 V c 5 t : Vec Ideal S64x64 .f32) = V c main_arg7 := by
  have e0 : win1_5.index t (0 : Fin 2) = 0 := (idx_facts t).2.2.2.2.2.2.2.2.2.1
  have e1 : win1_5.index t (1 : Fin 2) = 0 := (idx_facts t).2.2.2.2.2.2.2.2.2.2.1
  funext j
  obtain ⟨p, q, rfl⟩ : ∃ (p : Fin 64) (q : Fin 64), j = ix2 p q := ⟨j 0, j 1, eq_ix2 j⟩
  show V c main_arg7 (((cfg1.win 5).blk t).view.emb (ix2 p q)) = V c main_arg7 (ix2 p q)
  refine congrArg (V c main_arg7) (funext fun a => Fin.ext ?_)
  match a with
  | ⟨0, _⟩ => show win1_5.index t (0 : Fin 2) * 64 + 1 * p.val = p.val; omega
  | ⟨1, _⟩ => show win1_5.index t (1 : Fin 2) * 64 + 1 * q.val = q.val; omega

theorem iblk_6 (c : Dev nD) (t : Fin cfg1.N) :
    (iblk1 V c 6 t : Vec Ideal S64 .f32) = V c main_arg8 := by
  have e0 : win1_6.index t (0 : Fin 1) = 0 := (idx_facts t).2.2.2.2.2.2.2.2.2.2.2.1
  funext j
  obtain ⟨q, rfl⟩ : ∃ q : Fin 64, j = ix1 q := ⟨j 0, eq_ix1 j⟩
  show V c main_arg8 (((cfg1.win 6).blk t).view.emb (ix1 q)) = V c main_arg8 (ix1 q)
  refine congrArg (V c main_arg8) (funext fun a => Fin.ext ?_)
  match a with
  | ⟨0, _⟩ => show win1_6.index t (0 : Fin 1) * 64 + 1 * q.val = q.val; omega

/-! ## What a point writes back, the cover, the array -/

/-- A band of 8000 rows of an array of the output's shape, read through the output window's block at point t. -/
theorem read_blk7 (t : Fin cfg1.N) (G : Cert.Mp.A2 800000 64) :
    (((cfg1.win 7).blk t).view.read (Elt Ideal) G : Vec Ideal S8000x64 .f32) = Cert.Mp.band (n := 800000) G 8000 (t.val * 8000) (rows_le t) := by
  have e0 : win1_7.index t (0 : Fin 2) = t.val := (idx_facts t).2.2.2.2.2.2.2.2.2.2.2.2.1
  have e1 : win1_7.index t (1 : Fin 2) = 0 := (idx_facts t).2.2.2.2.2.2.2.2.2.2.2.2.2
  funext j
  obtain ⟨p, q, rfl⟩ : ∃ (p : Fin 8000) (q : Fin 64), j = ix2 p q := ⟨j 0, j 1, eq_ix2 j⟩
  show G (((cfg1.win 7).blk t).view.emb (ix2 p q)) = G (ix2 ⟨t.val * 8000 + p.val, _⟩ q)
  refine congrArg G (funext fun a => Fin.ext ?_)
  match a with
  | ⟨0, _⟩ => show win1_7.index t (0 : Fin 2) * 8000 + 1 * p.val = t.val * 8000 + p.val; omega
  | ⟨1, _⟩ => show win1_7.index t (1 : Fin 2) * 64 + 1 * q.val = q.val; omega

/-- What point t writes back is block t of the messages of the whole arrays. -/
theorem flushed_eq (c : Dev nD) (t : Fin cfg1.N) :
    (dat1 (F := Ideal) V c).flushed 7 t = ((cfg1.win 7).blk t).view.read (Elt Ideal)
      (Cert.Mp.msg (n := 800000) (V c main_v6) (V c main_arg1) (V c main_v7) (V c main_v2) (V c main_arg6) (V c main_arg7) (V c main_arg8)) := by
  refine Eq.trans ?_ (read_blk7 t _).symm
  rw [Cert.Mp.band_msg]
  show (cfg1.win 7).cut (grid1.coords t) ((dat1 V c).after 7 t) = _
  rw [after1_7]
  unfold out1_7
  rw [View.canon_unit_zero hz2]
  simp only [View.ld_unit_zero (S := S8000x64) hz2, View.ld_unit_zero (S := S64x64) hz2, View.ld_unit_zero (S := S64) hz1]
  rw [pay1_eq, iblk_0, iblk_1, iblk_2, iblk_3, iblk_4, iblk_5, iblk_6]
  rfl

/-- An index of the array is in point t's block iff each coordinate is in the block's range on its axis. -/
theorem mem_blk7 (t : Fin cfg1.N) (i : S800000x64.Idx) :
    i ∈ ((cfg1.win 7).blk t).view.set ↔ ∀ a : Fin 2, win1_7.index t a * S8000x64.size a ≤ (i a).val ∧ (i a).val < win1_7.index t a * S8000x64.size a + S8000x64.size a := by
  show i ∈ ((View.whole main_v8).slice (win1_7.rect t)).set ↔ _
  rw [View.set_slice_whole, Rect.mem_set_unit]
  exact Iff.rfl

/-- Row r is in the block of point r / 8000. -/
theorem cover7 (i : S800000x64.Idx) : ∃ t : Fin cfg1.N, (cfg1.win 7).flush t = true ∧ i ∈ ((cfg1.win 7).blk t).view.set := by
  have hi0 : (i 0).val < 800000 := (i 0).isLt
  have hi1 : (i 1).val < 64 := (i 1).isLt
  have ht : (i 0).val / 8000 < cfg1.N := lt_of_lt_of_eq (by omega : (i 0).val / 8000 < 100) (show cfg1.N = 100 from N_1).symm
  have e0 : win1_7.index ⟨(i 0).val / 8000, ht⟩ (0 : Fin 2) = (i 0).val / 8000 := (idx_facts ⟨(i 0).val / 8000, ht⟩).2.2.2.2.2.2.2.2.2.2.2.2.1
  have e1 : win1_7.index ⟨(i 0).val / 8000, ht⟩ (1 : Fin 2) = 0 := (idx_facts ⟨(i 0).val / 8000, ht⟩).2.2.2.2.2.2.2.2.2.2.2.2.2
  refine ⟨⟨(i 0).val / 8000, ht⟩, flush1_7 _, ?_⟩
  rw [mem_blk7]
  intro a
  match a with
  | ⟨0, _⟩ => show win1_7.index ⟨(i 0).val / 8000, ht⟩ (0 : Fin 2) * 8000 ≤ (i 0).val ∧ (i 0).val < win1_7.index ⟨(i 0).val / 8000, ht⟩ (0 : Fin 2) * 8000 + 8000; omega
  | ⟨1, _⟩ => show win1_7.index ⟨(i 0).val / 8000, ht⟩ (1 : Fin 2) * 64 ≤ (i 1).val ∧ (i 1).val < win1_7.index ⟨(i 0).val / 8000, ht⟩ (1 : Fin 2) * 64 + 64; omega

/-- The messages: the split-weight first layer over the two gathered projections and the edge features, ReLU, second layer. -/
theorem arr1_7 (c : Dev nD) :
    (dat1 (F := Ideal) V c).arrAt 7 cfg1.N
      = Cert.Mp.msg (V c main_v6) (V c main_arg1) (V c main_v7) (V c main_v2) (V c main_arg6) (V c main_arg7) (V c main_arg8) :=
  (dat1 (F := Ideal) V c).arrAt_eq_of_cover 7 _ (fun t _ => flushed_eq V c t) cover7

end Cert.KernelIdeal.Val1

end
-- ==== Proof.Region2.lean ====
/-
  The third region's result array as a whole-array function of the arrays the region finds: every node's update.
-/
import proofs.«408546_j30382598652103_2_alg».proof.Proof.Gen.KernelIdeal.Frame
import proofs.«408546_j30382598652103_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat Cfg Window)

-- The TensorCore's buffer contents when the region is entered.
variable (V : (c : Dev nD) → (b : Ref sig .tc) → Buf (Elt Ideal) ((c : Thread nD τ).loc b))

/-! ## The body's arithmetic at block size -/

/-- The contraction's operand indices, axis by axis. -/
private theorem lhs_mm_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem lhs_mm_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem rhs_mm_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem rhs_mm_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product into the zero accumulator, read at (p, q): the sum over the 64 contracted columns. -/
private theorem matmul_zero_apply (A : FVec Ideal S10000x64 .f32) (W : FVec Ideal S64x64 .f32) (p : Fin 10000) (q : Fin 64) :
    matmul dot_S10000x64_S64x64_S10000x64_1_0_0_1_n_n none A W (constant (F := Ideal) S10000x64 .f32 0x00000000#32) (ix2 p q)
      = Cert.Mp.mmAt A W p q := by
  unfold Cert.Mp.mmAt
  refine (Ideal.matmul_constant_zero_apply dot_S10000x64_S64x64_S10000x64_1_0_0_1_n_n none A W (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-- A bias row broadcast along the rows, read at (p, q). -/
private theorem bias_apply (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply b _ 0 q)

/-- The first layer after its ReLU, entry by entry. -/
private theorem relu_eq (x0 x1 : FVec Ideal S10000x64 .f32) (x2 x3 : FVec Ideal S64x64 .f32) (x4 : FVec Ideal S64 .f32) :
    maximumf
        (addf
          (addf
            (matmul dot_S10000x64_S64x64_S10000x64_1_0_0_1_n_n none x0 x2 (constant (F := Ideal) S10000x64 .f32 0x00000000#32))
            (matmul dot_S10000x64_S64x64_S10000x64_1_0_0_1_n_n none x1 x3 (constant (F := Ideal) S10000x64 .f32 0x00000000#32)))
          (broadcastTo S10000x64 (shapeCast S1x64 x4 shapeCasts_S64_S1x64) broadcasts_S1x64_S10000x64))
        (broadcast S10000x64 (FloatOps.ofBits (F := Ideal) .f32 0x00000000#32))
      = Cert.Mp.of2 fun r' k => max (Cert.Mp.updZ x0 x1 x2 x3 x4 (ix2 r' k)) 0 := by
  funext j
  obtain ⟨r, k, rfl⟩ : ∃ (r : Fin 10000) (k : Fin 64), j = ix2 r k := ⟨j 0, j 1, eq_ix2 j⟩
  show max ((matmul dot_S10000x64_S64x64_S10000x64_1_0_0_1_n_n none x0 x2 (constant (F := Ideal) S10000x64 .f32 0x00000000#32) (ix2 r k)
        + matmul dot_S10000x64_S64x64_S10000x64_1_0_0_1_n_n none x1 x3 (constant (F := Ideal) S10000x64 .f32 0x00000000#32) (ix2 r k))
        + broadcastTo S10000x64 (shapeCast S1x64 x4 shapeCasts_S64_S1x64) broadcasts_S1x64_S10000x64 (ix2 r k))
      (Ideal.ofBits .f32 0x00000000#32)
    = max ((Cert.Mp.mmAt x0 x2 r k + Cert.Mp.mmAt x1 x3 r k) + x4 (ix1 k)) 0
  rw [matmul_zero_apply, matmul_zero_apply, bias_apply, Ideal.ofBits_zero_f32]

/-- The payload is the node update at block size. -/
private theorem pay_eq (x0 x1 : Vec Ideal S10000x64 .f32) (x2 x3 : Vec Ideal S64x64 .f32) (x4 : Vec Ideal S64 .f32)
    (x5 : Vec Ideal S64x64 .f32) (x6 : Vec Ideal S64 .f32) :
    k2_pay1 (F := Ideal) x0 x2 x1 x3 x4 x5 x6 = Cert.Mp.upd x0 x1 x2 x3 x4 x5 x6 := by
  funext i
  obtain ⟨p, q, rfl⟩ : ∃ (p : Fin 10000) (q : Fin 64), i = ix2 p q := ⟨i 0, i 1, eq_ix2 i⟩
  unfold k2_pay1
  simp only [shapeCast_self]
  refine (congrArg (fun Z => addf (matmul dot_S10000x64_S64x64_S10000x64_1_0_0_1_n_n none Z (x5 : FVec Ideal S64x64 .f32) (constant (F := Ideal) S10000x64 .f32 0x00000000#32))
      (broadcastTo S10000x64 (shapeCast S1x64 (x6 : FVec Ideal S64 .f32) shapeCasts_S64_S1x64) broadcasts_S1x64_S10000x64) (ix2 p q)) (relu_eq x0 x1 x2 x3 x4)).trans ?_
  show matmul dot_S10000x64_S64x64_S10000x64_1_0_0_1_n_n none _ (x5 : FVec Ideal S64x64 .f32) (constant (F := Ideal) S10000x64 .f32 0x00000000#32) (ix2 p q)
      + broadcastTo S10000x64 (shapeCast S1x64 (x6 : FVec Ideal S64 .f32) shapeCasts_S64_S1x64) broadcasts_S1x64_S10000x64 (ix2 p q)
    = Cert.Mp.mmAt (Cert.Mp.of2 fun r' k => max (Cert.Mp.updZ x0 x1 x2 x3 x4 (ix2 r' k)) 0) x5 p q + x6 (ix1 q)
  rw [matmul_zero_apply, bias_apply]

/-! ## The windows' blocks as bands of their arrays -/

private theorem hz2 : (![0, 0] : Fin 2 → Nat) = fun _ => 0 := funext fun a => by fin_cases a <;> rfl
private theorem hz1 : (![0] : Fin 1 → Nat) = fun _ => 0 := funext fun a => by fin_cases a <;> rfl

/-- A point's row block lies inside the 50000 rows. -/
private theorem row_le (t : Fin cfg2.N) : t.val * 10000 + 10000 ≤ 50000 := by
  have h : t.val < 5 := lt_of_lt_of_eq t.isLt N_2
  omega

/-- The printed index maps, decided over the grid: the row-blocked windows are at block (t, 0), the others at block 0. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Rows n·10000 .. n·10000 + 9999 of a 50000-row array, read through a block's embedding. -/
private theorem rows_of_emb (A : Cert.Mp.A2 50000 64) (n : Nat) (hn : n * 10000 + 10000 ≤ 50000)
    (e : S10000x64.Idx → S50000x64.Idx)
    (h0 : ∀ y, (e y 0).val = n * 10000 + 1 * (y 0).val) (h1 : ∀ y, (e y 1).val = 0 * 64 + 1 * (y 1).val) :
    (fun y => A (e y)) = Cert.Mp.band A 10000 (n * 10000) hn := by
  funext y
  obtain ⟨p, q, rfl⟩ : ∃ (p : Fin 10000) (q : Fin 64), y = ix2 p q := ⟨y 0, y 1, eq_ix2 y⟩
  show A (e (ix2 p q)) = A (ix2 ⟨n * 10000 + p.val, _⟩ q)
  refine congrArg A (funext fun a => Fin.ext ?_)
  match a with
  | ⟨0, _⟩ => exact (h0 _).trans (by show n * 10000 + 1 * p.val = n * 10000 + p.val; omega)
  | ⟨1, _⟩ => exact (h1 _).trans (by show 0 * 64 + 1 * q.val = q.val; omega)

/-- A whole 64 × 64 array read through the embedding of its one block. -/
private theorem whole_of_emb2 (A : Cert.Mp.A2 64 64) (e : S64x64.Idx → S64x64.Idx)
    (h0 : ∀ y, (e y 0).val = 0 * 64 + 1 * (y 0).val) (h1 : ∀ y, (e y 1).val = 0 * 64 + 1 * (y 1).val) :
    (fun y => A (e y)) = A := by
  funext y
  refine congrArg A (funext fun a => Fin.ext ?_)
  match a with
  | ⟨0, _⟩ => exact (h0 _).trans (by show 0 * 64 + 1 * (y 0).val = (y 0).val; omega)
  | ⟨1, _⟩ => exact (h1 _).trans (by show 0 * 64 + 1 * (y 1).val = (y 1).val; omega)

/-- A whole length-64 vector read through the embedding of its one block. -/
private theorem whole_of_emb1 (b : Cert.Mp.A1 64) (e : S64.Idx → S64.Idx)
    (h0 : ∀ y, (e y 0).val = 0 * 64 + 1 * (y 0).val) :
    (fun y => b (e y)) = b := by
  funext y
  refine congrArg b (funext fun a => Fin.ext ?_)
  match a with
  | ⟨0, _⟩ => exact (h0 _).trans (by show 0 * 64 + 1 * (y 0).val = (y 0).val; omega)

/-! ## What a point writes back -/

/-- The update is a function of its seven arguments. -/
private theorem upd_congr {a a' b b' : Cert.Mp.A2 10000 64} {u u' v v' w w' : Cert.Mp.A2 64 64} {k k' l l' : Cert.Mp.A1 64}
    (ha : a = a') (hb : b = b') (hu : u = u') (hv : v = v') (hk : k = k') (hw : w = w') (hl : l = l') :
    Cert.Mp.upd a b u v k w l = Cert.Mp.upd a' b' u' v' k' w' l' := by
  subst ha hb hu hv hk hw hl; rfl

/-- What point t writes back is block t of the update of the whole arrays. -/
private theorem flushed_eq (c : Dev nD) (t : Fin cfg2.N) :
    (dat2 (F := Ideal) V c).flushed 7 t = ((cfg2.win 7).blk t).view.read (Elt Ideal)
      (Cert.Mp.upd (V c main_v11) (V c main_arg0) (V c main_v12) (V c main_v13) (V c main_arg10) (V c main_arg11) (V c main_arg12)) := by
  show (cfg2.win 7).cut (grid2.coords t) ((dat2 V c).after 7 t) = _
  rw [after2_7]
  unfold out2_7
  rw [View.canon_unit_zero hz2]
  simp only [View.ld_unit_zero (S := S10000x64) hz2, View.ld_unit_zero (S := S64x64) hz2, View.ld_unit_zero (S := S64) hz1]
  rw [pay_eq]
  obtain ⟨e00, e01, e10, e11, e20, e21, e30, e31, e40, e50, e51, e60, e70, e71⟩ := idx_facts t
  have b0 : (iblk2 V c 0 t : Vec Ideal S10000x64 .f32) = Cert.Mp.band (V c main_v11) 10000 (t.val * 10000) (row_le t) :=
    rows_of_emb (V c main_v11) t.val (row_le t) (((cfg2.win 0).blk t).view.emb)
      (fun y => by show win2_0.index t (0 : Fin 2) * 10000 + 1 * (y 0).val = _; rw [e00])
      (fun y => by show win2_0.index t (1 : Fin 2) * 64 + 1 * (y 1).val = _; rw [e01])
  have b1 : (iblk2 V c 1 t : Vec Ideal S10000x64 .f32) = Cert.Mp.band (V c main_arg0) 10000 (t.val * 10000) (row_le t) :=
    rows_of_emb (V c main_arg0) t.val (row_le t) (((cfg2.win 1).blk t).view.emb)
      (fun y => by show win2_1.index t (0 : Fin 2) * 10000 + 1 * (y 0).val = _; rw [e10])
      (fun y => by show win2_1.index t (1 : Fin 2) * 64 + 1 * (y 1).val = _; rw [e11])
  have b2 : (iblk2 V c 2 t : Vec Ideal S64x64 .f32) = V c main_v12 :=
    whole_of_emb2 (V c main_v12) (((cfg2.win 2).blk t).view.emb)
      (fun y => by show win2_2.index t (0 : Fin 2) * 64 + 1 * (y 0).val = _; rw [e20])
      (fun y => by show win2_2.index t (1 : Fin 2) * 64 + 1 * (y 1).val = _; rw [e21])
  have b3 : (iblk2 V c 3 t : Vec Ideal S64x64 .f32) = V c main_v13 :=
    whole_of_emb2 (V c main_v13) (((cfg2.win 3).blk t).view.emb)
      (fun y => by show win2_3.index t (0 : Fin 2) * 64 + 1 * (y 0).val = _; rw [e30])
      (fun y => by show win2_3.index t (1 : Fin 2) * 64 + 1 * (y 1).val = _; rw [e31])
  have b4 : (iblk2 V c 4 t : Vec Ideal S64 .f32) = V c main_arg10 :=
    whole_of_emb1 (V c main_arg10) (((cfg2.win 4).blk t).view.emb)
      (fun y => by show win2_4.index t (0 : Fin 1) * 64 + 1 * (y 0).val = _; rw [e40])
  have b5 : (iblk2 V c 5 t : Vec Ideal S64x64 .f32) = V c main_arg11 :=
    whole_of_emb2 (V c main_arg11) (((cfg2.win 5).blk t).view.emb)
      (fun y => by show win2_5.index t (0 : Fin 2) * 64 + 1 * (y 0).val = _; rw [e50])
      (fun y => by show win2_5.index t (1 : Fin 2) * 64 + 1 * (y 1).val = _; rw [e51])
  have b6 : (iblk2 V c 6 t : Vec Ideal S64 .f32) = V c main_arg12 :=
    whole_of_emb1 (V c main_arg12) (((cfg2.win 6).blk t).view.emb)
      (fun y => by show win2_6.index t (0 : Fin 1) * 64 + 1 * (y 0).val = _; rw [e60])
  have b7 : View.read (Elt Ideal) ((View.whole main_v14).slice ((win2 7).rect t))
        (Cert.Mp.upd (V c main_v11) (V c main_arg0) (V c main_v12) (V c main_v13) (V c main_arg10) (V c main_arg11) (V c main_arg12))
      = Cert.Mp.band (Cert.Mp.upd (V c main_v11) (V c main_arg0) (V c main_v12) (V c main_v13) (V c main_arg10) (V c main_arg11) (V c main_arg12))
          10000 (t.val * 10000) (row_le t) :=
    rows_of_emb (Cert.Mp.upd (V c main_v11) (V c main_arg0) (V c main_v12) (V c main_v13) (V c main_arg10) (V c main_arg11) (V c main_arg12))
      t.val (row_le t) (((cfg2.win 7).blk t).view.emb)
      (fun y => by show win2_7.index t (0 : Fin 2) * 10000 + 1 * (y 0).val = _; rw [e70])
      (fun y => by show win2_7.index t (1 : Fin 2) * 64 + 1 * (y 1).val = _; rw [e71])
  refine Eq.trans ?_ (b7.trans (Cert.Mp.band_upd _ _ _ _ _ _ _ _ _ _)).symm
  exact upd_congr b0 b1 b2 b3 b4 b5 b6

/-! ## The blocks cover the array -/

/-- An index of the array is in point t's block iff each coordinate is in the block's range on its axis. -/
private theorem mem_blk (t : Fin cfg2.N) (i : S50000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v14).slice (win2_7.rect t)).set ↔ _
  rw [View.set_slice_whole, Rect.mem_set_unit]
  exact Iff.rfl

/-- Row r is in the block of point r / 10000, which is written back. -/
private theorem cover (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  obtain ⟨t, ht⟩ : ∃ t : Fin cfg2.N, t.val = (i 0).val / 10000 :=
    ⟨⟨(i 0).val / 10000, by rw [show cfg2.N = 5 from N_2]; omega⟩, rfl⟩
  obtain ⟨-, -, -, -, -, -, -, -, -, -, -, -, e70, e71⟩ := idx_facts t
  refine ⟨t, flush2_7 t, ?_⟩
  rw [mem_blk]
  intro a
  match a with
  | ⟨0, _⟩ =>
    show win2_7.index t (0 : Fin 2) * 10000 ≤ (i 0).val ∧ (i 0).val < win2_7.index t (0 : Fin 2) * 10000 + 10000
    rw [e70, ht]; omega
  | ⟨1, _⟩ =>
    show win2_7.index t (1 : Fin 2) * 64 ≤ (i 1).val ∧ (i 1).val < win2_7.index t (1 : Fin 2) * 64 + 64
    rw [e71]; omega

/-- The updated node features: the split-weight first layer over the summed messages and h, ReLU, second layer. -/
theorem arr2_7 (c : Dev nD) :
    (dat2 (F := Ideal) V c).arrAt 7 cfg2.N
      = Cert.Mp.upd (V c main_v11) (V c main_arg0) (V c main_v12) (V c main_v13) (V c main_arg10) (V c main_arg11) (V c main_arg12) :=
  (dat2 (F := Ideal) V c).arrAt_eq_of_cover 7
    (Cert.Mp.upd (V c main_v11) (V c main_arg0) (V c main_v12) (V c main_v13) (V c main_arg10) (V c main_arg11) (V c main_arg12))
    (fun t _ => flushed_eq V c t) cover

end Cert.KernelIdeal.Val2

end
-- ==== Proof.TakeFacts.lean ====
/-
  What the precondition says about the two index vectors, and what follows for the kernel program's host stretches: under it
  every wrapped index is a row of the table, the take's mask is all ones and the take is the plain row gather; and a strided
  slice of 64 rows of a weight matrix is its band of rows.
-/
import proofs.«408546_j30382598652103_2_alg».proof.Proof.KTerms
import proofs.«408546_j30382598652103_2_alg».proof.Proof.Spec
import proofs.«408546_j30382598652103_2_alg».proof.Pre_finite_inputs
import proofs.«408546_j30382598652103_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Val

open Cert.KernelIdeal Idealize.ShloMosaic Idealize.ShloMosaic.ValueIdx
open Facts₀ Facts

/-! ## The precondition's two index conjuncts -/

private instance : Subsingleton S_.Idx := ⟨fun a b => funext fun d => d.elim0⟩

/-- One `all((s ≥ 0) & (s ≤ 49999))` that came out 1 says both comparisons hold at every entry of s. -/
private theorem inRange_of_all (s : IVec S800000 32) (hb : S_.BroadcastsInDim S800000 (![] : Fin 0 → Fin S800000.rank))
    (hr : S800000.ReducesTo [0] S_) (hu : 0 < S_.numel)
    (h : Host.reduce IntOp.andi
        (andi (cmpi .sge s (broadcastInDim S800000 ![] hb (constantI S_ 32 0#32)))
          (cmpi .sle s (broadcastInDim S800000 ![] hb (constantI S_ 32 49999#32))))
        (constantI S_ 1 1#1) hr hu ix0 = 1#1) : InRange s := by
  intro i
  have hi := Host.reduce_andi_all _ _ hr hu ix0 h i
  exact IntOp.andi_eq_one.1 hi

/-- The last stretch of the precondition's and-chain: its last two conjuncts are the two range checks. -/
private theorem inRange_of_part3 {F : FTy → Type} [FloatOps F] (a3 a4 : IVec S800000 32) (v48 : IVec S_ 1)
    (v49 v50 : FVec F S64 .f32)
    (h : Cert.Pre_finite_inputs.fn_part3 (F := F) a3 a4 v48 v49 v50 ix0 = 1#1) : InRange a3 ∧ InRange a4 := by
  dsimp only [Cert.Pre_finite_inputs.fn_part3] at h
  obtain ⟨h1, h4⟩ := IntOp.andi_eq_one.1 h
  obtain ⟨h2, h3⟩ := IntOp.andi_eq_one.1 h1
  exact ⟨inRange_of_all a3 _ _ _ h3, inRange_of_all a4 _ _ _ h4⟩

/-- The precondition's last two conjuncts: both index vectors hold rows of the 50000-row table. -/
theorem inRange_of_pre {F : FTy → Type} [FloatOps F]
    (x0 : FVec F S50000x64 .f32) (x1 : FVec F S800000x64 .f32) (x2 : FVec F S50000x64 .f32) (x3 x4 : IVec S800000 32)
    (x5 : FVec F S320x64 .f32) (x6 : FVec F S64 .f32) (x7 : FVec F S64x64 .f32) (x8 : FVec F S64 .f32)
    (x9 : FVec F S128x64 .f32) (x10 : FVec F S64 .f32) (x11 : FVec F S64x64 .f32) (x12 : FVec F S64 .f32)
    (h : Cert.Pre_finite_inputs.fn (F := F) x0 x1 x2 x3 x4 x5 x6 x7 x8 x9 x10 x11 x12 = fun _ => 1#1) :
    InRange x3 ∧ InRange x4 := by
  have h0 := congrFun h ix0
  exact inRange_of_part3 (F := F) x3 x4 _ _ _ h0

/-! ## The take under the range facts -/

/-- A left fold by `and` from 1 over words that are all 1 is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l fun n hn => h n (List.mem_cons_of_mem _ hn)

/-- A reduce by `and` from 1 of an array of ones is 1 at every result index. -/
private theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

/-- A word that is at least 0 as a signed number is not below 0. -/
private theorem slt_zero_of_sge {a : BitVec 32} (h : IntOp.cmpi .sge a 0#32 = 1#1) : IntOp.cmpi .slt a 0#32 = 0#1 := by
  have h' : BitVec.ofBool ((0#32 : BitVec 32).sle a) = 1#1 := h
  have h'' : (0#32 : BitVec 32).sle a = true := (StableHlo.Predicate.ofBool_eq_one_iff _).1 h'
  have hf : a.slt 0#32 = false := by
    simp only [BitVec.slt, BitVec.sle, decide_eq_true_eq, decide_eq_false_iff_not] at h'' ⊢
    omega
  show BitVec.ofBool (a.slt 0#32) = 0#1
  rw [hf]; rfl

/-- With every index in range, entry (p, 0) of the wrapped index column is entry p of the index vector. -/
private theorem widx_apply (s : IVec S800000 32) (hs : InRange s) (i : S800000x1.Idx) : widx s i = s (ix1 (i 0)) := by
  unfold widx
  refine (broadcastInDim_apply _ bcast_S800000_S800000x1_0 _ i (ix1 (i 0)) (fun a => match a with
    | ⟨0, _⟩ => by show (i 0).val = if (800000 : Nat) = 1 then 0 else (i 0).val; rw [if_neg (by decide)])).trans ?_
  rw [select_apply]
  have hz : cmpi .slt s (broadcastInDim S800000 ![] bcast_S_S800000 (constantI S_ 32 0#32)) (ix1 (i 0)) = 0#1 :=
    slt_zero_of_sge (hs (ix1 (i 0))).1
  rw [hz, select_zero]

/-- With every index in range the take's mask is 1 at every row. -/
private theorem takeMask_one (s : IVec S800000 32) (hs : InRange s) (k : S800000.Idx) : takeMask s k = 1#1 := by
  unfold takeMask
  refine reduce_andi_of_all _ _ _ _ k rfl fun i => ?_
  show IntOp.andi (IntOp.cmpi .sge (widx s i) 0#32) (IntOp.cmpi .sle (widx s i) 49999#32) = 1#1
  rw [widx_apply s hs i]
  exact IntOp.andi_eq_one.2 (hs _)

/-- With every index a row of the table the take's mask is all ones: the take is the row gather at the wrapped indices. -/
theorem take_eq {F : FTy → Type} [FloatOps F] (x : FVec F S50000x64 .f32) (s : IVec S800000 32) (hs : InRange s) :
    take (F := F) x s = Host.gather gather_S50000x64_S800000x1_S800000x64_1_0_n_n_0_1_164 x (widx s) := by
  funext j
  unfold take
  rw [select_apply]
  have hm : broadcastInDim S800000x64 ![0] bcast_S800000_S800000x64_0 (takeMask s) j = 1#1 :=
    takeMask_one s hs _
  rw [hm, select_one]

/-! ## The weight slices -/

/-- A 64-row slice of a taller 64-column matrix is its band of rows. -/
private theorem slice_rows {cw : Nat} (W : Cert.Mp.A2 cw 64) (off : Nat) (h : off + 64 ≤ cw)
    (hs : (⟨2, ![cw, 64]⟩ : Shape).Slices ![off, 0] S64x64) :
    extractStridedSlice S64x64 ![off, 0] W hs = Cert.Mp.rows W off h := by
  funext j
  obtain ⟨p, q, rfl⟩ : ∃ (p : Fin 64) (q : Fin 64), j = ix2 p q := ⟨j 0, j 1, eq_ix2 j⟩
  refine (extractStridedSlice_apply ![off, 0] W hs (ix2 p q) (ix2 ⟨off + p.val, by have := p.isLt; omega⟩ q) ?_).trans rfl
  intro a
  match a with
  | ⟨0, _⟩ => rfl
  | ⟨1, _⟩ => show q.val = 0 + q.val; omega

/-- A 64-row slice of the 320-row weight matrix is its band of rows. -/
theorem slice320_0 (W : FVec Ideal S320x64 .f32) :
    extractStridedSlice S64x64 ![0, 0] W slices_S320x64_S64x64_0_0 = Cert.Mp.rows W 0 (by decide) :=
  slice_rows W 0 _ _
theorem slice320_64 (W : FVec Ideal S320x64 .f32) :
    extractStridedSlice S64x64 ![64, 0] W slices_S320x64_S64x64_64_0 = Cert.Mp.rows W 64 (by decide) :=
  slice_rows W 64 _ _
theorem slice320_128 (W : FVec Ideal S320x64 .f32) :
    extractStridedSlice S64x64 ![128, 0] W slices_S320x64_S64x64_128_0 = Cert.Mp.rows W 128 (by decide) :=
  slice_rows W 128 _ _
theorem slice320_192 (W : FVec Ideal S320x64 .f32) :
    extractStridedSlice S64x64 ![192, 0] W slices_S320x64_S64x64_192_0 = Cert.Mp.rows W 192 (by decide) :=
  slice_rows W 192 _ _
theorem slice320_256 (W : FVec Ideal S320x64 .f32) :
    extractStridedSlice S64x64 ![256, 0] W slices_S320x64_S64x64_256_0 = Cert.Mp.rows W 256 (by decide) :=
  slice_rows W 256 _ _
/-- A 64-row slice of the 128-row weight matrix is its band of rows. -/
theorem slice128_0 (W : FVec Ideal S128x64 .f32) :
    extractStridedSlice S64x64 ![0, 0] W slices_S128x64_S64x64_0_0 = Cert.Mp.rows W 0 (by decide) :=
  slice_rows W 0 _ _
theorem slice128_64 (W : FVec Ideal S128x64 .f32) :
    extractStridedSlice S64x64 ![64, 0] W slices_S128x64_S64x64_64_0 = Cert.Mp.rows W 64 (by decide) :=
  slice_rows W 64 _ _

end Cert.KernelIdeal.Val

end
-- ==== Proof.GatherRows.lean ====
/-
  A row gather read at an index. `x[idx]` along axis 0 of an [N, C] table, with one start index per result row, reads row
  `rowOf idx i` of the table at every column: the start index read as a signed word and clamped into 0 .. N − 1. The row
  does not depend on the column count, so the same rows are read from two tables of different widths.
-/
import Idealize.ShloMosaic.PureOps
import Idealize.ShloMosaic.Lib.ValueIdx

noncomputable section

namespace Cert.Mp

open Idealize.ShloMosaic Idealize.ShloMosaic.ValueIdx

/-- The dimension numbers of a row gather: [N, C] table, [E, 1] start indices, [E, C] result, slices of one row. -/
def rowGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row result row `i` reads: its start index as a signed word, clamped into 0 .. N − 1. -/
def rowOf (N : Nat) {E : Nat} (hN : 0 < N) (idx : IVec ⟨2, ![E, 1]⟩ 32) (i : Fin E) : Fin N :=
  ⟨min (idx (ix2 i (0 : Fin 1))).toInt.toNat (N - 1), by omega⟩

/-- On the table's row axis the operand coordinate is the clamped start index: no batching, no offset. -/
private theorem operand_axis0 {N C E : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ 32) (i : Fin E) (j : Fin C) :
    (rowGather N C E wf).start (ix2 i j) idx 0 + (rowGather N C E wf).batchCoord (ix2 i j) 0
      + (rowGather N C E wf).offCoord (ix2 i j) 0 = (rowOf N hN idx i).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C E wf).startIndexMap from List.mem_singleton.mpr rfl)]
  have hsi : (rowGather N C E wf).siIdx (ix2 i j) ⟨List.idxOf (0 : Fin 2) (rowGather N C E wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- On the table's column axis the start is zero (the axis is not in the start index map), there is no batching, and
    the offset coordinate is the result's column. -/
private theorem operand_axis1 {N C E : Nat}
    (wf : GatherDims.WF ⟨2, ![N, C]⟩ ⟨2, ![E, 1]⟩ ⟨2, ![E, C]⟩ [1] [0] [] [0] [] 1 ![1, C])
    (idx : IVec ⟨2, ![E, 1]⟩ 32) (i : Fin E) (j : Fin C) :
    (rowGather N C E wf).start (ix2 i j) idx 1 + (rowGather N C E wf).batchCoord (ix2 i j) 1
      + (rowGather N C E wf).offCoord (ix2 i j) 1 = j.val := by
  have h10 : ¬ (1 : Fin 2) = 0 := by decide
  rw [GatherDims.batchCoord_eq_zero _ _ _ List.not_mem_nil]
  have hs : (rowGather N C E wf).start (ix2 i j) idx 1 = 0 := by
    unfold GatherDims.start
    rw [dif_neg (fun h : (1 : Fin 2) ∈ (rowGather N C E wf).startIndexMap => h10 (List.mem_singleton.mp h))]
  rw [hs]
  simp only [Nat.add_zero, Nat.zero_add]
  have hk : (1 : Fin 2) ∈ (rowGather N C E wf).sKept :=
    (GatherDims.mem_sKept _ _).mpr ⟨fun h => h10 (List.mem_singleton.mp h), List.not_mem_nil⟩
  unfold GatherDims.offCoord
  rw [dif_pos hk]
  rfl

/-- The gather at (i, j) is the table at (rowOf idx i, j). -/
theorem gather_rows_apply {α : Type} {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (i : Fin E) (j : Fin C) :
    Host.gather (rowGather N C E wf) x idx (ix2 i j) = x (ix2 (rowOf N hN idx i) j) := by
  unfold Host.gather
  congr 1
  funext a
  refine Fin.ext ?_
  match a with
  | ⟨0, _⟩ => exact operand_axis0 hN wf idx i j
  | ⟨1, _⟩ => exact operand_axis1 wf idx i j

/-- The whole gather as a function of the result index. -/
theorem gather_rows_eq {α : Type} {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) :
    Host.gather (rowGather N C E wf) x idx = fun y => x (ix2 (rowOf N hN idx (y 0)) (y 1)) := by
  funext y
  rw [eq_ix2 y]
  exact gather_rows_apply hN wf x idx (y 0) (y 1)

end Cert.Mp

end
-- ==== Proof.Bridge.lean ====
/-
  The two programs' values are one function. The reference multiplies a 320-column concatenation (two gathered 128-column
  node rows around the edge's own 64 columns) by the whole first-layer matrix; the kernel adds five 64-column products, two
  of them taken on the node table BEFORE the gather. A sum over the 320 (or 128) contracted columns splits into the sums
  over the column bands, which needs only that addition of extended reals is associative and commutative; a gathered row
  of a product is the product of the gathered row.
-/
import proofs.«408546_j30382598652103_2_alg».proof.Proof.KTerms
import proofs.«408546_j30382598652103_2_alg».proof.Proof.Spec
import proofs.«408546_j30382598652103_2_alg».proof.Proof.GatherRows
import proofs.«408546_j30382598652103_2_alg».proof.Proof.RefRead
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

open scoped BigOperators

/-! ## Sums by column bands -/

/-- A sum over n + m terms is the sum of the first n and the sum of the last m. -/
private theorem sum_band {N : Nat} (n m : Nat) (h : n + m = N) (f : Fin N → EReal) :
    ∑ k, f k = (∑ k : Fin n, f ⟨k.val, by have := k.isLt; omega⟩) + ∑ k : Fin m, f ⟨n + k.val, by have := k.isLt; omega⟩ := by
  subst h
  exact Fin.sum_univ_add f

/-- A sum over 128 terms by its two 64-term bands. -/
private theorem sum128 (f : Fin 128 → EReal) :
    ∑ κ, f κ = (∑ k : Fin 64, f ⟨0 + k.val, by have := k.isLt; omega⟩) + ∑ k : Fin 64, f ⟨64 + k.val, by have := k.isLt; omega⟩ := by
  rw [sum_band 64 64 rfl f]
  simp only [Nat.zero_add]

/-- A sum over 320 terms by its five 64-term bands, grouped (band 0 + band 1) + band 2, then (band 3 + band 4). -/
private theorem sum320 (f : Fin 320 → EReal) :
    ∑ κ, f κ = (((∑ k : Fin 64, f ⟨0 + k.val, by have := k.isLt; omega⟩) + ∑ k : Fin 64, f ⟨64 + k.val, by have := k.isLt; omega⟩)
        + ∑ k : Fin 64, f ⟨128 + k.val, by have := k.isLt; omega⟩)
      + ((∑ k : Fin 64, f ⟨192 + k.val, by have := k.isLt; omega⟩) + ∑ k : Fin 64, f ⟨256 + k.val, by have := k.isLt; omega⟩) := by
  rw [sum_band 256 64 rfl f, sum_band 192 64 rfl (fun k : Fin 256 => f ⟨k.val, by have := k.isLt; omega⟩),
    sum_band 128 64 rfl (fun k : Fin 192 => f ⟨k.val, by have := k.isLt; omega⟩),
    sum_band 64 64 rfl (fun k : Fin 128 => f ⟨k.val, by have := k.isLt; omega⟩)]
  simp only [Nat.zero_add, add_assoc]

/-! ## Arrays laid side by side, read at a column -/

/-- Two 64-column arrays side by side: a column of the left band. -/
private theorem cat2_left (x y : Cert.Mp.A2 50000 64)
    (h : Shape.Concatenates [(⟨2, ![50000, 64]⟩ : Shape), ⟨2, ![50000, 64]⟩] ⟨2, ![50000, 128]⟩ 1) (r : Fin 50000)
    (c : Fin 128) (k : Fin 64) (hc : c.val = k.val) :
    concatenate (⟨2, ![50000, 128]⟩ : Shape) 1 [⟨⟨2, ![50000, 64]⟩, x⟩, ⟨⟨2, ![50000, 64]⟩, y⟩] h (ix2 r c) = x (ix2 r k) :=
  concatenate_pair_apply_left (t := ⟨2, ![50000, 128]⟩) (s₁ := ⟨2, ![50000, 64]⟩) (s₂ := ⟨2, ![50000, 64]⟩) (1 : Fin 2) x y h _ rfl
    (ix2 r k) (fun b => by
      match b with
      | ⟨0, _⟩ => rfl
      | ⟨1, _⟩ => exact hc.symm)

/-- Two 64-column arrays side by side: a column of the right band. -/
private theorem cat2_right (x y : Cert.Mp.A2 50000 64)
    (h : Shape.Concatenates [(⟨2, ![50000, 64]⟩ : Shape), ⟨2, ![50000, 64]⟩] ⟨2, ![50000, 128]⟩ 1) (r : Fin 50000)
    (c : Fin 128) (k : Fin 64) (hc : c.val = 64 + k.val) :
    concatenate (⟨2, ![50000, 128]⟩ : Shape) 1 [⟨⟨2, ![50000, 64]⟩, x⟩, ⟨⟨2, ![50000, 64]⟩, y⟩] h (ix2 r c) = y (ix2 r k) :=
  concatenate_pair_apply_right (t := ⟨2, ![50000, 128]⟩) (s₁ := ⟨2, ![50000, 64]⟩) (s₂ := ⟨2, ![50000, 64]⟩) (1 : Fin 2) x y h _ rfl rfl
    (ix2 r k) (fun b hb => by
      match b with
      | ⟨0, _⟩ => rfl
      | ⟨1, _⟩ => exact absurd rfl hb)
    (by show k.val + 64 = c.val; omega)

/-- Three arrays of 128, 64 and 128 columns side by side: a column of the first. -/
private theorem cat3_fst (x : Cert.Mp.A2 800000 128) (y : Cert.Mp.A2 800000 64) (z : Cert.Mp.A2 800000 128)
    (h : Shape.Concatenates [(⟨2, ![800000, 128]⟩ : Shape), ⟨2, ![800000, 64]⟩, ⟨2, ![800000, 128]⟩] ⟨2, ![800000, 320]⟩ 1)
    (r : Fin 800000) (c : Fin 320) (k : Fin 128) (hc : c.val = k.val) :
    concatenate (⟨2, ![800000, 320]⟩ : Shape) 1 [⟨⟨2, ![800000, 128]⟩, x⟩, ⟨⟨2, ![800000, 64]⟩, y⟩, ⟨⟨2, ![800000, 128]⟩, z⟩] h
      (ix2 r c) = x (ix2 r k) :=
  concatenate_apply_piece (t := ⟨2, ![800000, 320]⟩) (1 : Fin 2)
    [⟨⟨2, ![800000, 128]⟩, x⟩, ⟨⟨2, ![800000, 64]⟩, y⟩, ⟨⟨2, ![800000, 128]⟩, z⟩] h _ 0 (Nat.zero_lt_succ _)
    ⟨2, ![800000, 128]⟩ x rfl rfl 0 rfl
    (ix2 r k) (fun b hb => by
      match b with
      | ⟨0, _⟩ => rfl
      | ⟨1, _⟩ => exact absurd rfl hb)
    (by show 0 + k.val = c.val; omega)

/-- Three arrays of 128, 64 and 128 columns side by side: a column of the second. -/
private theorem cat3_snd (x : Cert.Mp.A2 800000 128) (y : Cert.Mp.A2 800000 64) (z : Cert.Mp.A2 800000 128)
    (h : Shape.Concatenates [(⟨2, ![800000, 128]⟩ : Shape), ⟨2, ![800000, 64]⟩, ⟨2, ![800000, 128]⟩] ⟨2, ![800000, 320]⟩ 1)
    (r : Fin 800000) (c : Fin 320) (k : Fin 64) (hc : c.val = 128 + k.val) :
    concatenate (⟨2, ![800000, 320]⟩ : Shape) 1 [⟨⟨2, ![800000, 128]⟩, x⟩, ⟨⟨2, ![800000, 64]⟩, y⟩, ⟨⟨2, ![800000, 128]⟩, z⟩] h
      (ix2 r c) = y (ix2 r k) :=
  concatenate_apply_piece (t := ⟨2, ![800000, 320]⟩) (1 : Fin 2)
    [⟨⟨2, ![800000, 128]⟩, x⟩, ⟨⟨2, ![800000, 64]⟩, y⟩, ⟨⟨2, ![800000, 128]⟩, z⟩] h _ 1 (by show 1 < 3; omega)
    ⟨2, ![800000, 64]⟩ y rfl rfl 128 rfl
    (ix2 r k) (fun b hb => by
      match b with
      | ⟨0, _⟩ => rfl
      | ⟨1, _⟩ => exact absurd rfl hb)
    (by show 128 + k.val = c.val; omega)

/-- Three arrays of 128, 64 and 128 columns side by side: a column of the third. -/
private theorem cat3_trd (x : Cert.Mp.A2 800000 128) (y : Cert.Mp.A2 800000 64) (z : Cert.Mp.A2 800000 128)
    (h : Shape.Concatenates [(⟨2, ![800000, 128]⟩ : Shape), ⟨2, ![800000, 64]⟩, ⟨2, ![800000, 128]⟩] ⟨2, ![800000, 320]⟩ 1)
    (r : Fin 800000) (c : Fin 320) (k : Fin 128) (hc : c.val = 192 + k.val) :
    concatenate (⟨2, ![800000, 320]⟩ : Shape) 1 [⟨⟨2, ![800000, 128]⟩, x⟩, ⟨⟨2, ![800000, 64]⟩, y⟩, ⟨⟨2, ![800000, 128]⟩, z⟩] h
      (ix2 r c) = z (ix2 r k) :=
  concatenate_apply_piece (t := ⟨2, ![800000, 320]⟩) (1 : Fin 2)
    [⟨⟨2, ![800000, 128]⟩, x⟩, ⟨⟨2, ![800000, 64]⟩, y⟩, ⟨⟨2, ![800000, 128]⟩, z⟩] h _ 2 (by show 2 < 3; omega)
    ⟨2, ![800000, 128]⟩ z rfl rfl 192 rfl
    (ix2 r k) (fun b hb => by
      match b with
      | ⟨0, _⟩ => rfl
      | ⟨1, _⟩ => exact absurd rfl hb)
    (by show 192 + k.val = c.val; omega)

/-! ## The edge messages -/

section Msg
open Cert.ReferenceIdeal.ReadP

variable (x0 : Cert.Mp.A2 50000 64) (x1 : Cert.Mp.A2 800000 64) (x2 : Cert.Mp.A2 50000 64)
  (x3 x4 : IVec Cert.KernelIdeal.S800000 32) (x5 : Cert.Mp.A2 320 64) (x6 : Cert.Mp.A1 64) (x7 : Cert.Mp.A2 64 64) (x8 : Cert.Mp.A1 64)

private theorem lidx16 (i : Fin 800000) (k : Fin 64) (κ : Fin 320) : lidx_main_v16 (ix2 i k) κ = ix2 i κ :=
  funext fun a => Fin.ext (by match a with | ⟨0, _⟩ => rfl | ⟨1, _⟩ => rfl)
private theorem ridx16 (i : Fin 800000) (k : Fin 64) (κ : Fin 320) : ridx_main_v16 (ix2 i k) κ = ix2 κ k :=
  funext fun a => Fin.ext (by match a with | ⟨0, _⟩ => rfl | ⟨1, _⟩ => rfl)
private theorem lidx22 (i : Fin 800000) (j k : Fin 64) : lidx_main_v22 (ix2 i j) k = ix2 i k :=
  funext fun a => Fin.ext (by match a with | ⟨0, _⟩ => rfl | ⟨1, _⟩ => rfl)
private theorem ridx22 (i : Fin 800000) (j k : Fin 64) : ridx_main_v22 (ix2 i j) k = ix2 k j :=
  funext fun a => Fin.ext (by match a with | ⟨0, _⟩ => rfl | ⟨1, _⟩ => rfl)
private theorem bidx18 (i : Fin 800000) (k : Fin 64) : idx_main_v17 (idx_main_v18 (ix2 i k)) = ix1 k :=
  funext fun a => Fin.ext (by match a with | ⟨0, _⟩ => rfl)
private theorem bidx24 (i : Fin 800000) (j : Fin 64) : idx_main_v23 (idx_main_v24 (ix2 i j)) = ix1 j :=
  funext fun a => Fin.ext (by match a with | ⟨0, _⟩ => rfl)

/-- The two programs build the start-index column of a take with the same operations. -/
private theorem v6_eq : val_main_v6 (F := Ideal) x3 = Cert.KernelIdeal.Val.widx x3 := rfl
private theorem v13_eq : val_main_v13 (F := Ideal) x4 = Cert.KernelIdeal.Val.widx x4 := rfl

/-- The node table's two halves side by side: a column of the left half. -/
private theorem v0_left (r : Fin 50000) (c : Fin 128) (κ : Fin 64) (hc : c.val = κ.val) :
    val_main_v0 (F := Ideal) x0 x2 (ix2 r c) = x0 (ix2 r κ) :=
  cat2_left _ _ _ r c κ hc

/-- A column of the right half. -/
private theorem v0_right (r : Fin 50000) (c : Fin 128) (κ : Fin 64) (hc : c.val = 64 + κ.val) :
    val_main_v0 (F := Ideal) x0 x2 (ix2 r c) = x2 (ix2 r κ) :=
  cat2_right _ _ _ r c κ hc

/-- A gathered row of the 128-column node table is the table's row the start index names. -/
private theorem v7_at (i : Fin 800000) (c : Fin 128) :
    val_main_v7 (F := Ideal) x0 x2 x3 (ix2 i c) = val_main_v0 (F := Ideal) x0 x2 (ix2 (Cert.Mp.rowOf 50000 (by decide) (Cert.KernelIdeal.Val.widx x3) i) c) :=
  Cert.Mp.gather_rows_apply (N := 50000) (C := 128) (E := 800000) (by decide) _ (val_main_v0 (F := Ideal) x0 x2)
    (Cert.KernelIdeal.Val.widx x3) i c

private theorem v14_at (i : Fin 800000) (c : Fin 128) :
    val_main_v14 (F := Ideal) x0 x2 x4 (ix2 i c) = val_main_v0 (F := Ideal) x0 x2 (ix2 (Cert.Mp.rowOf 50000 (by decide) (Cert.KernelIdeal.Val.widx x4) i) c) :=
  Cert.Mp.gather_rows_apply (N := 50000) (C := 128) (E := 800000) (by decide) _ (val_main_v0 (F := Ideal) x0 x2)
    (Cert.KernelIdeal.Val.widx x4) i c

/-- A gathered row of a 64-column table is the table's row the start index names: the same row as above. -/
private theorem kgather_at (T : Cert.Mp.A2 50000 64) (s : IVec Cert.KernelIdeal.S800000 32) (i : Fin 800000) (k : Fin 64) :
    Host.gather Cert.KernelIdeal.gather_S50000x64_S800000x1_S800000x64_1_0_n_n_0_1_164 T (Cert.KernelIdeal.Val.widx s) (ix2 i k)
      = T (ix2 (Cert.Mp.rowOf 50000 (by decide) (Cert.KernelIdeal.Val.widx s) i) k) :=
  Cert.Mp.gather_rows_apply (N := 50000) (C := 64) (E := 800000) (by decide) _ T (Cert.KernelIdeal.Val.widx s) i k

/-- The five 64-column bands of the 320-column concatenation. -/
private theorem v15_b0 (i : Fin 800000) (k : Fin 64) :
    val_main_v15 (F := Ideal) x0 x1 x2 x3 x4 (ix2 i (⟨0 + k.val, by have := k.isLt; omega⟩ : Fin 320)) = x0 (ix2 (Cert.Mp.rowOf 50000 (by decide) (Cert.KernelIdeal.Val.widx x3) i) k) :=
  (cat3_fst _ _ _ _ i _ (⟨0 + k.val, by have := k.isLt; omega⟩ : Fin 128) rfl).trans
    ((v7_at x0 x2 x3 i _).trans (v0_left x0 x2 _ _ k (by show 0 + k.val = k.val; omega)))

private theorem v15_b1 (i : Fin 800000) (k : Fin 64) :
    val_main_v15 (F := Ideal) x0 x1 x2 x3 x4 (ix2 i (⟨64 + k.val, by have := k.isLt; omega⟩ : Fin 320)) = x2 (ix2 (Cert.Mp.rowOf 50000 (by decide) (Cert.KernelIdeal.Val.widx x3) i) k) :=
  (cat3_fst _ _ _ _ i _ (⟨64 + k.val, by have := k.isLt; omega⟩ : Fin 128) rfl).trans
    ((v7_at x0 x2 x3 i _).trans (v0_right x0 x2 _ _ k rfl))

private theorem v15_b2 (i : Fin 800000) (k : Fin 64) :
    val_main_v15 (F := Ideal) x0 x1 x2 x3 x4 (ix2 i (⟨128 + k.val, by have := k.isLt; omega⟩ : Fin 320)) = x1 (ix2 i k) :=
  cat3_snd _ _ _ _ i _ k rfl

private theorem v15_b3 (i : Fin 800000) (k : Fin 64) :
    val_main_v15 (F := Ideal) x0 x1 x2 x3 x4 (ix2 i (⟨192 + k.val, by have := k.isLt; omega⟩ : Fin 320)) = x0 (ix2 (Cert.Mp.rowOf 50000 (by decide) (Cert.KernelIdeal.Val.widx x4) i) k) :=
  (cat3_trd _ _ _ _ i _ (⟨0 + k.val, by have := k.isLt; omega⟩ : Fin 128) (by show 192 + k.val = 192 + (0 + k.val); omega)).trans
    ((v14_at x0 x2 x4 i _).trans (v0_left x0 x2 _ _ k (by show 0 + k.val = k.val; omega)))

private theorem v15_b4 (i : Fin 800000) (k : Fin 64) :
    val_main_v15 (F := Ideal) x0 x1 x2 x3 x4 (ix2 i (⟨256 + k.val, by have := k.isLt; omega⟩ : Fin 320)) = x2 (ix2 (Cert.Mp.rowOf 50000 (by decide) (Cert.KernelIdeal.Val.widx x4) i) k) :=
  (cat3_trd _ _ _ _ i _ (⟨64 + k.val, by have := k.isLt; omega⟩ : Fin 128) (by show 256 + k.val = 192 + (64 + k.val); omega)).trans
    ((v14_at x0 x2 x4 i _).trans (v0_right x0 x2 _ _ k rfl))

/-- The product with the whole 320-row matrix is the sum of the five band products, two of them projections of the
    node table read at the gathered row. -/
private theorem v16_at (i : Fin 800000) (k : Fin 64) :
    val_main_v16 (F := Ideal) x0 x1 x2 x3 x4 x5 (ix2 i k)
      = ((Host.gather Cert.KernelIdeal.gather_S50000x64_S800000x1_S800000x64_1_0_n_n_0_1_164
        (Cert.Mp.proj x0 x2 (Cert.Mp.rows x5 0 (by decide)) (Cert.Mp.rows x5 64 (by decide))) (Cert.KernelIdeal.Val.widx x3)) (ix2 i k)
          + Cert.Mp.mmAt x1 (Cert.Mp.rows x5 128 (by decide)) i k)
        + (Host.gather Cert.KernelIdeal.gather_S50000x64_S800000x1_S800000x64_1_0_n_n_0_1_164
        (Cert.Mp.proj x0 x2 (Cert.Mp.rows x5 192 (by decide)) (Cert.Mp.rows x5 256 (by decide))) (Cert.KernelIdeal.Val.widx x4)) (ix2 i k) := by
  rw [val_main_v16_apply, sum320, kgather_at, kgather_at]
  simp only [lidx16, ridx16, v15_b0, v15_b1, v15_b2, v15_b3, v15_b4]
  rfl

/-- The message network before its ReLU. -/
private theorem v19_at (i : Fin 800000) (k : Fin 64) :
    val_main_v19 (F := Ideal) x0 x1 x2 x3 x4 x5 x6 (ix2 i k)
      = Cert.Mp.msgZ
        (Host.gather Cert.KernelIdeal.gather_S50000x64_S800000x1_S800000x64_1_0_n_n_0_1_164
        (Cert.Mp.proj x0 x2 (Cert.Mp.rows x5 0 (by decide)) (Cert.Mp.rows x5 64 (by decide))) (Cert.KernelIdeal.Val.widx x3))
        x1
        (Host.gather Cert.KernelIdeal.gather_S50000x64_S800000x1_S800000x64_1_0_n_n_0_1_164
        (Cert.Mp.proj x0 x2 (Cert.Mp.rows x5 192 (by decide)) (Cert.Mp.rows x5 256 (by decide))) (Cert.KernelIdeal.Val.widx x4))
        (Cert.Mp.rows x5 128 (by decide)) x6 (ix2 i k) := by
  rw [val_main_v19_apply, v16_at, val_main_v18_apply, val_main_v17_apply, bidx18]
  rfl

/-- The message network after its ReLU. -/
private theorem v21_at (i : Fin 800000) (k : Fin 64) :
    val_main_v21 (F := Ideal) x0 x1 x2 x3 x4 x5 x6 (ix2 i k)
      = max (Cert.Mp.msgZ
        (Host.gather Cert.KernelIdeal.gather_S50000x64_S800000x1_S800000x64_1_0_n_n_0_1_164
        (Cert.Mp.proj x0 x2 (Cert.Mp.rows x5 0 (by decide)) (Cert.Mp.rows x5 64 (by decide))) (Cert.KernelIdeal.Val.widx x3))
        x1
        (Host.gather Cert.KernelIdeal.gather_S50000x64_S800000x1_S800000x64_1_0_n_n_0_1_164
        (Cert.Mp.proj x0 x2 (Cert.Mp.rows x5 192 (by decide)) (Cert.Mp.rows x5 256 (by decide))) (Cert.KernelIdeal.Val.widx x4))
        (Cert.Mp.rows x5 128 (by decide)) x6 (ix2 i k)) 0 := by
  rw [val_main_v21_apply, v19_at, val_main_v20_apply, val_main_cst_apply, Ideal.maximumf_def, Ideal.ofBits_def,
    Ideal.ofBits_zero_f32]

/-- The second layer's product. -/
private theorem v22_at (i : Fin 800000) (j : Fin 64) :
    val_main_v22 (F := Ideal) x0 x1 x2 x3 x4 x5 x6 x7 (ix2 i j)
      = ∑ k : Fin 64, max (Cert.Mp.msgZ
        (Host.gather Cert.KernelIdeal.gather_S50000x64_S800000x1_S800000x64_1_0_n_n_0_1_164
        (Cert.Mp.proj x0 x2 (Cert.Mp.rows x5 0 (by decide)) (Cert.Mp.rows x5 64 (by decide))) (Cert.KernelIdeal.Val.widx x3))
        x1
        (Host.gather Cert.KernelIdeal.gather_S50000x64_S800000x1_S800000x64_1_0_n_n_0_1_164
        (Cert.Mp.proj x0 x2 (Cert.Mp.rows x5 192 (by decide)) (Cert.Mp.rows x5 256 (by decide))) (Cert.KernelIdeal.Val.widx x4))
        (Cert.Mp.rows x5 128 (by decide)) x6 (ix2 i k)) 0 * x7 (ix2 k j) := by
  rw [val_main_v22_apply]
  refine Finset.sum_congr rfl fun k _ => ?_
  rw [lidx22, ridx22, v21_at]

end Msg

/-- Every edge's message: the kernel's split-weight form over the gathered projections is the reference's stage. -/
theorem msg_bridge (x0 : Cert.Mp.A2 50000 64) (x1 : Cert.Mp.A2 800000 64) (x2 : Cert.Mp.A2 50000 64)
    (x3 x4 : IVec Cert.KernelIdeal.S800000 32) (x5 : Cert.Mp.A2 320 64) (x6 : Cert.Mp.A1 64) (x7 : Cert.Mp.A2 64 64) (x8 : Cert.Mp.A1 64) :
    Cert.Mp.msg
      (Host.gather Cert.KernelIdeal.gather_S50000x64_S800000x1_S800000x64_1_0_n_n_0_1_164
        (Cert.Mp.proj x0 x2 (Cert.Mp.rows x5 0 (by decide)) (Cert.Mp.rows x5 64 (by decide))) (Cert.KernelIdeal.Val.widx x3))
      x1
      (Host.gather Cert.KernelIdeal.gather_S50000x64_S800000x1_S800000x64_1_0_n_n_0_1_164
        (Cert.Mp.proj x0 x2 (Cert.Mp.rows x5 192 (by decide)) (Cert.Mp.rows x5 256 (by decide))) (Cert.KernelIdeal.Val.widx x4))
      (Cert.Mp.rows x5 128 (by decide)) x6 x7 x8
    = Cert.ReferenceIdeal.ReadP.val_main_v25 (F := Ideal) x0 x1 x2 x3 x4 x5 x6 x7 x8 := by
  open Cert.ReferenceIdeal.ReadP in
  funext i
  obtain ⟨p, q, rfl⟩ : ∃ (p : Fin 800000) (q : Fin 64), i = ix2 p q := ⟨i 0, i 1, eq_ix2 i⟩
  rw [val_main_v25_apply, v22_at, val_main_v24_apply, val_main_v23_apply, bidx24, Ideal.addf_def]
  rfl

section Upd
open Cert.ReferenceIdeal.ReadP

variable (x0 : Cert.Mp.A2 50000 64) (x1 : Cert.Mp.A2 800000 64) (x2 : Cert.Mp.A2 50000 64)
  (x3 x4 : IVec Cert.KernelIdeal.S800000 32) (x5 : Cert.Mp.A2 320 64) (x6 : Cert.Mp.A1 64) (x7 : Cert.Mp.A2 64 64) (x8 : Cert.Mp.A1 64)
  (x9 : Cert.Mp.A2 128 64) (x10 : Cert.Mp.A1 64) (x11 : Cert.Mp.A2 64 64) (x12 : Cert.Mp.A1 64)

private theorem lidx30 (p : Fin 50000) (k : Fin 64) (κ : Fin 128) : lidx_main_v30 (ix2 p k) κ = ix2 p κ :=
  funext fun a => Fin.ext (by match a with | ⟨0, _⟩ => rfl | ⟨1, _⟩ => rfl)
private theorem ridx30 (p : Fin 50000) (k : Fin 64) (κ : Fin 128) : ridx_main_v30 (ix2 p k) κ = ix2 κ k :=
  funext fun a => Fin.ext (by match a with | ⟨0, _⟩ => rfl | ⟨1, _⟩ => rfl)
private theorem lidx36 (p : Fin 50000) (q k : Fin 64) : lidx_main_v36 (ix2 p q) k = ix2 p k :=
  funext fun a => Fin.ext (by match a with | ⟨0, _⟩ => rfl | ⟨1, _⟩ => rfl)
private theorem ridx36 (p : Fin 50000) (q k : Fin 64) : ridx_main_v36 (ix2 p q) k = ix2 k q :=
  funext fun a => Fin.ext (by match a with | ⟨0, _⟩ => rfl | ⟨1, _⟩ => rfl)
private theorem bidx32 (p : Fin 50000) (k : Fin 64) : idx_main_v31 (idx_main_v32 (ix2 p k)) = ix1 k :=
  funext fun a => Fin.ext (by match a with | ⟨0, _⟩ => rfl)
private theorem bidx38 (p : Fin 50000) (q : Fin 64) : idx_main_v37 (idx_main_v38 (ix2 p q)) = ix1 q :=
  funext fun a => Fin.ext (by match a with | ⟨0, _⟩ => rfl)

/-- The summed messages beside the node features: a column of the left band is a column of the summed messages. -/
private theorem v29_left (p : Fin 50000) (κ : Fin 64) :
    val_main_v29 (F := Ideal) x0 x1 x2 x3 x4 x5 x6 x7 x8 (ix2 p (⟨0 + κ.val, by have := κ.isLt; omega⟩ : Fin 128))
      = val_main_v28 (F := Ideal) x0 x1 x2 x3 x4 x5 x6 x7 x8 (ix2 p κ) :=
  cat2_left _ _ _ p _ κ (by show 0 + κ.val = κ.val; omega)

/-- A column of the right band is a column of the node features. -/
private theorem v29_right (p : Fin 50000) (κ : Fin 64) :
    val_main_v29 (F := Ideal) x0 x1 x2 x3 x4 x5 x6 x7 x8 (ix2 p (⟨64 + κ.val, by have := κ.isLt; omega⟩ : Fin 128))
      = x0 (ix2 p κ) :=
  cat2_right _ _ _ p _ κ rfl

/-- The product with the whole 128-row matrix is the sum of the products with its two 64-row bands. -/
private theorem v30_at (p : Fin 50000) (k : Fin 64) :
    val_main_v30 (F := Ideal) x0 x1 x2 x3 x4 x5 x6 x7 x8 x9 (ix2 p k)
      = Cert.Mp.mmAt (val_main_v28 (F := Ideal) x0 x1 x2 x3 x4 x5 x6 x7 x8) (Cert.Mp.rows x9 0 (by decide)) p k
        + Cert.Mp.mmAt x0 (Cert.Mp.rows x9 64 (by decide)) p k := by
  rw [val_main_v30_apply, sum128]
  simp only [lidx30, ridx30, v29_left, v29_right]
  generalize val_main_v28 (F := Ideal) x0 x1 x2 x3 x4 x5 x6 x7 x8 = V
  rfl

/-- The update network before its ReLU. -/
private theorem v33_at (p : Fin 50000) (k : Fin 64) :
    val_main_v33 (F := Ideal) x0 x1 x2 x3 x4 x5 x6 x7 x8 x9 x10 (ix2 p k)
      = Cert.Mp.updZ (val_main_v28 (F := Ideal) x0 x1 x2 x3 x4 x5 x6 x7 x8) x0
          (Cert.Mp.rows x9 0 (by decide)) (Cert.Mp.rows x9 64 (by decide)) x10 (ix2 p k) := by
  rw [val_main_v33_apply, v30_at, val_main_v32_apply, val_main_v31_apply, bidx32]
  generalize val_main_v28 (F := Ideal) x0 x1 x2 x3 x4 x5 x6 x7 x8 = V
  rfl

/-- The update network after its ReLU. -/
private theorem v35_at (p : Fin 50000) (k : Fin 64) :
    val_main_v35 (F := Ideal) x0 x1 x2 x3 x4 x5 x6 x7 x8 x9 x10 (ix2 p k)
      = max (Cert.Mp.updZ (val_main_v28 (F := Ideal) x0 x1 x2 x3 x4 x5 x6 x7 x8) x0
          (Cert.Mp.rows x9 0 (by decide)) (Cert.Mp.rows x9 64 (by decide)) x10 (ix2 p k)) 0 := by
  rw [val_main_v35_apply, v33_at, val_main_v34_apply, val_main_cst_4_apply, Ideal.maximumf_def, Ideal.ofBits_def,
    Ideal.ofBits_zero_f32]

/-- The second layer's product. -/
private theorem v36_at (p : Fin 50000) (q : Fin 64) :
    val_main_v36 (F := Ideal) x0 x1 x2 x3 x4 x5 x6 x7 x8 x9 x10 x11 (ix2 p q)
      = ∑ k : Fin 64, max (Cert.Mp.updZ (val_main_v28 (F := Ideal) x0 x1 x2 x3 x4 x5 x6 x7 x8) x0
          (Cert.Mp.rows x9 0 (by decide)) (Cert.Mp.rows x9 64 (by decide)) x10 (ix2 p k)) 0 * x11 (ix2 k q) := by
  rw [val_main_v36_apply]
  refine Finset.sum_congr rfl fun k _ => ?_
  rw [lidx36, ridx36, v35_at]

end Upd

/-- Every node's update: the kernel's split-weight form over the summed messages is the reference's last stage. -/
theorem upd_bridge (x0 : Cert.Mp.A2 50000 64) (x1 : Cert.Mp.A2 800000 64) (x2 : Cert.Mp.A2 50000 64)
    (x3 x4 : IVec Cert.KernelIdeal.S800000 32) (x5 : Cert.Mp.A2 320 64) (x6 : Cert.Mp.A1 64) (x7 : Cert.Mp.A2 64 64) (x8 : Cert.Mp.A1 64)
    (x9 : Cert.Mp.A2 128 64) (x10 : Cert.Mp.A1 64) (x11 : Cert.Mp.A2 64 64) (x12 : Cert.Mp.A1 64) :
    Cert.Mp.upd (Cert.ReferenceIdeal.ReadP.val_main_v28 (F := Ideal) x0 x1 x2 x3 x4 x5 x6 x7 x8) x0
      (Cert.Mp.rows x9 0 (by decide)) (Cert.Mp.rows x9 64 (by decide)) x10 x11 x12
    = Cert.ReferenceIdeal.ReadP.val_main_v39 (F := Ideal) x0 x1 x2 x3 x4 x5 x6 x7 x8 x9 x10 x11 x12 := by
  open Cert.ReferenceIdeal.ReadP in
  funext i
  obtain ⟨p, q, rfl⟩ : ∃ (p : Fin 50000) (q : Fin 64), i = ix2 p q := ⟨i 0, i 1, eq_ix2 i⟩
  rw [val_main_v39_apply, v36_at, val_main_v38_apply, val_main_v37_apply, bidx38, Ideal.addf_def]
  generalize val_main_v28 (F := Ideal) x0 x1 x2 x3 x4 x5 x6 x7 x8 = V
  rfl

end Cert.Bridge

end
-- ==== Proof.Final.lean ====
/-
  The kernel program's first result as one function of its arguments, and that function is the reference's. Region 2's output
  is the update network of the scatter-added messages and h; the messages are region 1's output, the message network of the
  two gathered pre-projections and the edge features; the pre-projections are region 0's outputs. Under the precondition both
  index vectors hold rows of the node table, so each take is the plain row gather; a gathered row of a projection is the
  projection of the gathered row, and a product with a row-stacked weight matrix is the sum of the products with its bands:
  the kernel's split-weight, gather-after-projection form computes the reference's stages.
-/
import proofs.«408546_j30382598652103_2_alg».proof.Proof.Chain
import proofs.«408546_j30382598652103_2_alg».proof.Proof.Region0
import proofs.«408546_j30382598652103_2_alg».proof.Proof.Region1
import proofs.«408546_j30382598652103_2_alg».proof.Proof.Region2
import proofs.«408546_j30382598652103_2_alg».proof.Proof.TakeFacts
import proofs.«408546_j30382598652103_2_alg».proof.Proof.Bridge

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- Region 0's two outputs: the node table projected through the first and the last pair of weight bands. -/
theorem W2_v5_0 (c : Dev nD) : W2 m ρ c (Proc.devRef .tc main_v5_0)
    = Cert.Mp.proj (m ((c : Thread nD τ).loc main_arg0)) (m ((c : Thread nD τ).loc main_arg2)) (Cert.Mp.rows (m ((c : Thread nD τ).loc main_arg5)) 0 (by decide)) (Cert.Mp.rows (m ((c : Thread nD τ).loc main_arg5)) 64 (by decide)) := by
  refine (W2_arr m ρ c 6).trans ((Val0.arr0_6 (V1 m ρ) c).trans ?_)
  show Cert.Mp.proj (W1 m ρ c (Proc.devRef .tc main_arg0)) (W1 m ρ c (Proc.devRef .tc main_arg2))
    (W1 m ρ c (Proc.devRef .tc main_v0)) (W1 m ρ c (Proc.devRef .tc main_v1)) = _
  rw [W1_arg m ρ c main_arg0 (by simp [IsArg]), W1_arg m ρ c main_arg2 (by simp [IsArg]), W1_v0, W1_v1, slice320_0, slice320_64]

theorem W2_v5_1 (c : Dev nD) : W2 m ρ c (Proc.devRef .tc main_v5_1)
    = Cert.Mp.proj (m ((c : Thread nD τ).loc main_arg0)) (m ((c : Thread nD τ).loc main_arg2)) (Cert.Mp.rows (m ((c : Thread nD τ).loc main_arg5)) 192 (by decide)) (Cert.Mp.rows (m ((c : Thread nD τ).loc main_arg5)) 256 (by decide)) := by
  refine (W2_arr m ρ c 7).trans ((Val0.arr0_7 (V1 m ρ) c).trans ?_)
  show Cert.Mp.proj (W1 m ρ c (Proc.devRef .tc main_arg0)) (W1 m ρ c (Proc.devRef .tc main_arg2))
    (W1 m ρ c (Proc.devRef .tc main_v3)) (W1 m ρ c (Proc.devRef .tc main_v4)) = _
  rw [W1_arg m ρ c main_arg0 (by simp [IsArg]), W1_arg m ρ c main_arg2 (by simp [IsArg]), W1_v3, W1_v4, slice320_192, slice320_256]

/-- Region 1's output: every edge's message, the reference's stage. -/
theorem W5_v8 (c : Dev nD) (h3 : InRange (m ((c : Thread nD τ).loc main_arg3))) (h4 : InRange (m ((c : Thread nD τ).loc main_arg4))) :
    W5 m ρ c (Proc.devRef .tc main_v8)
      = Cert.ReferenceIdeal.ReadP.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 7).trans ((Val1.arr1_7 (V4 m ρ) c).trans ?_)
  show Cert.Mp.msg (W4 m ρ c (Proc.devRef .tc main_v6)) (W4 m ρ c (Proc.devRef .tc main_arg1))
    (W4 m ρ c (Proc.devRef .tc main_v7)) (W4 m ρ c (Proc.devRef .tc main_v2)) (W4 m ρ c (Proc.devRef .tc main_arg6))
    (W4 m ρ c (Proc.devRef .tc main_arg7)) (W4 m ρ c (Proc.devRef .tc main_arg8)) = _
  rw [W4_v6, W3_v6, W4_v7, W3_v5_1, W4_v2, W3_v2, W2_v2, W1_v2, slice320_128,
    W4_arg m ρ c main_arg1 (by simp [IsArg]), W4_arg m ρ c main_arg6 (by simp [IsArg]),
    W4_arg m ρ c main_arg7 (by simp [IsArg]), W4_arg m ρ c main_arg8 (by simp [IsArg]),
    W3_arg m ρ c main_arg4 (by simp [IsArg]), W2_arg m ρ c main_arg3 (by simp [IsArg]),
    W2_v5_0, W2_v5_1, take_eq _ _ h3, take_eq _ _ h4]
  exact Cert.Bridge.msg_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The first result buffer at the last boundary is the reference's last stage of the arguments. -/
theorem W7_v14 (c : Dev nD) (h3 : InRange (m ((c : Thread nD τ).loc main_arg3))) (h4 : InRange (m ((c : Thread nD τ).loc main_arg4))) :
    W7 m ρ c (Proc.devRef .tc main_v14)
      = Cert.ReferenceIdeal.ReadP.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr m ρ c 7).trans ((Val2.arr2_7 (V6 m ρ) c).trans ?_)
  show Cert.Mp.upd (W6 m ρ c (Proc.devRef .tc main_v11)) (W6 m ρ c (Proc.devRef .tc main_arg0))
    (W6 m ρ c (Proc.devRef .tc main_v12)) (W6 m ρ c (Proc.devRef .tc main_v13)) (W6 m ρ c (Proc.devRef .tc main_arg10))
    (W6 m ρ c (Proc.devRef .tc main_arg11)) (W6 m ρ c (Proc.devRef .tc main_arg12)) = _
  rw [W6_v11, W6_v12, W6_v13, W5_v8 m ρ c h3 h4,
    W5_arg m ρ c main_arg4 (by simp [IsArg]), W5_arg m ρ c main_arg9 (by simp [IsArg]),
    W6_arg m ρ c main_arg0 (by simp [IsArg]), W6_arg m ρ c main_arg10 (by simp [IsArg]),
    W6_arg m ρ c main_arg11 (by simp [IsArg]), W6_arg m ρ c main_arg12 (by simp [IsArg]),
    slice128_0, slice128_64]
  exact Cert.Bridge.upd_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

end Cert.KernelIdeal.Val

end
-- ==== Proof.lean ====
/-
  One message-passing layer of a graph network, the kernel against its reference, over the extended reals.

  The reference gathers the two endpoint rows of the concatenated node features [h | rnf] for every edge, joins them around the
  edge's own features, and runs a two-layer perceptron on the 320 joined columns; it scatter-adds the messages into their
  destination nodes, joins the sums with h, and runs a second two-layer perceptron on the 128 joined columns. The kernel splits
  both first-layer weight matrices into their 64-row bands, multiplies the NODE table by four of the bands before the gather
  (a gathered row of a product is the product of the gathered row), and adds the banded products in place of the one joined
  product (a sum over joined columns is the sum of the sums over the parts). Addition of extended reals is associative and
  commutative, so no finiteness is needed for the algebra. The kernel gathers with `jnp.take`, which fills rows whose index
  lies outside the table with a not-a-number word, where the reference's indexing clamps: the two agree exactly where both
  index vectors hold rows of the table, which the precondition says (0 ≤ src, dst ≤ 49999).

  Frames: the kernel programs' are the generated frame certificates; the reference's is its run with the results dropped.
  Nothing was rewritten by the idealization, so there is nothing to preserve. The value claim runs both programs with their
  first result named by the reference's last stage of the arguments (`W7_v14` for the kernel, the staged run for the
  reference) and their second result, an argument, as launched.
-/
import proofs.«408546_j30382598652103_2_alg».proof.Defs
import proofs.«408546_j30382598652103_2_alg».proof.Proof.Gen.Kernel
import proofs.«408546_j30382598652103_2_alg».proof.Proof.Gen.Kernel.Frame
import proofs.«408546_j30382598652103_2_alg».proof.Proof.Gen.KernelIdeal
import proofs.«408546_j30382598652103_2_alg».proof.Proof.Gen.KernelIdeal.Frame
import proofs.«408546_j30382598652103_2_alg».proof.Proof.Gen.ReferenceIdeal
import proofs.«408546_j30382598652103_2_alg».proof.Proof.Gen.Pre_finite_inputs
import proofs.«408546_j30382598652103_2_alg».proof.Proof.RunMain
import proofs.«408546_j30382598652103_2_alg».proof.Proof.RefRunStaged
import proofs.«408546_j30382598652103_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.RunStaged.run (F := Ideal) m ρ)

/-- Both programs end with the reference's last stage of the (agreeing) arguments in their first result and the second
    argument, untouched, as their second. -/
theorem algebraic : Cert.algebraic_KernelIdeal_ReferenceIdeal := by
  intro m ρ m' ρ' hpre hagree
  refine ⟨fun c => Cert.ReferenceIdeal.ReadP.val_main_v39 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    fun c => m ((c.tc : Thread Cert.KernelIdeal.nD Cert.KernelIdeal.τ).loc Cert.KernelIdeal.main_arg1), ?_, ?_⟩
  · refine (θ_run Cert.KernelIdeal.defs _ _).mono (fun _ h c => ⟨(h c).1.trans ?_, (h c).2.1, (h c).2.2⟩)
      (Cert.KernelIdeal.Gen.run_main (F := Ideal) m ρ)
    have hr := Cert.KernelIdeal.Val.inRange_of_pre _ _ _ _ _ _ _ _ _ _ _ _ _ (hpre c)
    exact Cert.KernelIdeal.Val.W7_v14 m ρ c hr.1 hr.2
  · refine (θ_run Cert.ReferenceIdeal.defs _ _).mono (fun _ h c => ⟨(h c).1.trans ?_, (h c).2.1.trans (hagree c).2.1, (h c).2.2⟩)
      (Cert.ReferenceIdeal.RunStaged.run (F := Ideal) m' ρ')
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
